-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v5_2)) (v2 : (c : Dev Cert.KernelIdeal.nD) → Buf (Elt Ideal) ((c.tc : Thread Cert.KernelIdeal.nD Cert.KernelIdeal.τ).loc Cert.KernelIdeal.main_v5_0)) (v3 : (c : Dev Cert.KernelIdeal.nD) → Buf (Elt Ideal) ((c.tc : Thread Cert.KernelIdeal.nD Cert.KernelIdeal.τ).loc Cert.KernelIdeal.main_v5_1)) (v4 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v5_2) = v1 c
          ∧ r.2.mem ((c.tc : Thread Cert.KernelIdeal.nD Cert.KernelIdeal.τ).loc Cert.KernelIdeal.main_v5_0) = v2 c
          ∧ r.2.mem ((c.tc : Thread Cert.KernelIdeal.nD Cert.KernelIdeal.τ).loc Cert.KernelIdeal.main_v5_1) = v3 c
          ∧ r.2.mem ((c.tc : Thread Cert.KernelIdeal.nD Cert.KernelIdeal.τ).loc Cert.KernelIdeal.main_v5_0) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_v23) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64x32 : Shape := ⟨2, ![64, 32]⟩
abbrev S32x128 : Shape := ⟨2, ![32, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S64x32 .f32) (main_arg5 : FVec F S32x128 .f32) (main_arg6 : FVec F S128 .f32) (main_arg7 : FVec F S128 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32x128 .f32 := Host.absf main_arg5
  let main_cst_8 : FVec F S_ .f32 := constant S_ .f32 0x7F800000#32
  let main_v25 : FVec F S32x128 .f32 := broadcastInDim S32x128 ![] bcast_S_S32x128 main_cst_8
  let main_v26 : IVec S32x128 1 := cmpf .olt main_v24 main_v25
  let main_c_9 : IVec S_ 1 := constantI S_ 1 1#1
  let main_v27 : IVec S_ 1 := (fun x v => Host.reduce IntOp.andi x v reducesTo_S32x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x64 .f32) (main_arg3 : FVec F S64x32 .f32) (main_arg4 : FVec F S64x32 .f32) (main_arg5 : FVec F S32x128 .f32) (main_arg6 : FVec F S128 .f32) (main_arg7 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x32 .f32 := Host.absf main_arg3
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64x32 : Shape := ⟨2, ![64, 32]⟩
abbrev S32x128 : Shape := ⟨2, ![32, 128]⟩
abbrev S128 : Shape := ⟨1, ![128]⟩
abbrev S64x64 : Shape := ⟨2, ![64, 64]⟩
abbrev S1x128 : Shape := ⟨2, ![1, 128]⟩
abbrev S10000x64 : Shape := ⟨2, ![10000, 64]⟩
abbrev S400x10000 : Shape := ⟨2, ![400, 10000]⟩
abbrev S400x64 : Shape := ⟨2, ![400, 64]⟩
abbrev S10000x32 : Shape := ⟨2, ![10000, 32]⟩
abbrev S400x32 : Shape := ⟨2, ![400, 32]⟩
abbrev S400x128 : Shape := ⟨2, ![400, 128]⟩
abbrev S32x10000 : Shape := ⟨2, ![32, 10000]⟩

abbrev nBuf : Space → Nat
  | .hbm => 18
  | .vmem => 28
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64x32, .f32⟩
  | .hbm, ⟨4, _⟩ => ⟨S64x32, .f32⟩
  | .hbm, ⟨5, _⟩ => ⟨S32x128, .f32⟩
  | .hbm, ⟨6, _⟩ => ⟨S128, .f32⟩
  | .hbm, ⟨7, _⟩ => ⟨S128, .f32⟩
  | .hbm, ⟨8, _⟩ => ⟨S64x64, .f32⟩
  | .hbm, ⟨9, _⟩ => ⟨S1x128, .f32⟩
  | .hbm, ⟨10, _⟩ => ⟨S1x128, .f32⟩
  | .hbm, ⟨11, _⟩ => ⟨S10000x64, .f32⟩
  | .hbm, ⟨12, _⟩ => ⟨S10000x64, .f32⟩
  | .hbm, ⟨13, _⟩ => ⟨S10000x32, .f32⟩
  | .hbm, ⟨14, _⟩ => ⟨S10000x32, .f32⟩
  | .hbm, ⟨15, _⟩ => ⟨S10000x128, .f32⟩
  | .hbm, ⟨16, _⟩ => ⟨S32x10000, .f32⟩
  | .hbm, ⟨17, _⟩ => ⟨S10000x10000, .f32⟩
  | .local _ .vmem, ⟨0, _⟩ => ⟨S10000x128, .f32⟩
  | .local _ .vmem, ⟨1, _⟩ => ⟨S128x64, .f32⟩
  | .local _ .vmem, ⟨2, _⟩ => ⟨S1x128, .f32⟩
  | .local _ .vmem, ⟨3, _⟩ => ⟨S1x128, .f32⟩
  | .local _ .vmem, ⟨4, _⟩ => ⟨S10000x64, .f32⟩
  | .local _ .vmem, ⟨5, _⟩ => ⟨S400x10000, .f32⟩
  | .local _ .vmem, ⟨6, _⟩ => ⟨S400x10000, .f32⟩
  | .local _ .vmem, ⟨7, _⟩ => ⟨S10000x64, .f32⟩
  | .local _ .vmem, ⟨8, _⟩ => ⟨S64x64, .f32⟩
  | .local _ .vmem, ⟨9, _⟩ => ⟨S400x64, .f32⟩
  | .local _ .vmem, ⟨10, _⟩ => ⟨S400x64, .f32⟩
  | .local _ .vmem, ⟨11, _⟩ => ⟨S400x10000, .f32⟩
  | .local _ .vmem, ⟨12, _⟩ => ⟨S400x10000, .f32⟩
  | .local _ .vmem, ⟨13, _⟩ => ⟨S10000x64, .f32⟩
  | .local _ .vmem, ⟨14, _⟩ => ⟨S32x128, .f32⟩
  | .local _ .vmem, ⟨15, _⟩ => ⟨S400x32, .f32⟩
  | .local _ .vmem, ⟨16, _⟩ => ⟨S400x32, .f32⟩
  | .local _ .vmem, ⟨17, _⟩ => ⟨S400x32, .f32⟩
  | .local _ .vmem, ⟨18, _⟩ => ⟨S400x32, .f32⟩
  | .local _ .vmem, ⟨19, _⟩ => ⟨S400x128, .f32⟩
  | .local _ .vmem, ⟨20, _⟩ => ⟨S400x128, .f32⟩
  | .local _ .vmem, ⟨21, _⟩ => ⟨S10000x32, .f32⟩
  | .local _ .vmem, ⟨22, _⟩ => ⟨S32x10000, .f32⟩
  | .local _ .vmem, ⟨23, _⟩ => ⟨S400x32, .f32⟩
  | .local _ .vmem, ⟨24, _⟩ => ⟨S400x32, .f32⟩
  | .local _ .vmem, ⟨25, _⟩ => ⟨S32x10000, .f32⟩
  | .local _ .vmem, ⟨26, _⟩ => ⟨S400x10000, .f32⟩
  | .local _ .vmem, ⟨27, _⟩ => ⟨S400x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg1_0 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc2_sem4_0 : DmaSem sig := 17
abbrev cc2_sem4_1 : DmaSem sig := 18
abbrev cc2_sem5_0 : DmaSem sig := 19
abbrev cc2_sem5_1 : DmaSem sig := 20
abbrev cc3_sem0_0 : DmaSem sig := 21
abbrev cc3_sem1_0 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10000x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S400x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S400x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := .none

abbrev stage3_0 : Fin 1 → Memref sig .tc .vmem S10000x32 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S32x10000 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x10000 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x10000 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  concatenates_S64x32_S64x32_S64x64_d1 : Shape.Concatenates [S64x32, S64x32] S64x64 1
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  reduces_S10000x128_S128 : S10000x128.Reduces [0] S128
  broadcasts_S1x128_S10000x128 : S1x128.Broadcasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  inb_S400x10000_S400x10000_0_0 : ∀ a, (![0, 0] : Fin 2 → Nat) a + S400x10000.size a ≤ S400x10000.size a
  h_S400x10000 : 0 < S400x10000.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S400x64_S400x64_0_0 : ∀ a, (![0, 0] : Fin 2 → Nat) a + S400x64.size a ≤ S400x64.size a
  h_S400x64 : 0 < S400x64.numel
  slices_S400x64_o0_0_S400x32 : S400x64.Slices ![0, 0] S400x32
  inb_S400x32_S400x32_0_0 : ∀ a, (![0, 0] : Fin 2 → Nat) a + S400x32.size a ≤ S400x32.size a
  h_S400x32 : 0 < S400x32.numel
  slices_S400x64_o0_32_S400x32 : S400x64.Slices ![0, 32] S400x32
  inb_S32x128_S32x128_0_0 : ∀ a, (![0, 0] : Fin 2 → Nat) a + S32x128.size a ≤ S32x128.size a
  h_S32x128 : 0 < S32x128.numel
  inb_S400x128_S400x128_0_0 : ∀ a, (![0, 0] : Fin 2 → Nat) a + S400x128.size a ≤ S400x128.size a
  h_S400x128 : 0 < S400x128.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  transposes_S10000x32_p1_0_S32x10000 : S10000x32.Transposes [1, 0] S32x10000
  inb_S32x10000_S32x10000_0_0 : ∀ a, (![0, 0] : Fin 2 → Nat) a + S32x10000.size a ≤ S32x10000.size a
  h_S32x10000 : 0 < S32x10000.numel
  shapeCasts_S400x32_S400x32 : S400x32.ShapeCasts S400x32
  shapeCasts_S32x10000_S32x10000 : S32x10000.ShapeCasts S32x10000
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x64_S400x64_1_0_0_1_n_n_wf : DotDims.WF S400x64 S64x64 S400x64 [1] [0] [0] [1] [] []
  dot_S400x32_S32x128_S400x128_1_0_0_1_n_n_wf : DotDims.WF S400x32 S32x128 S400x128 [1] [0] [0] [1] [] []
  dot_S400x32_S32x10000_S400x10000_1_0_0_1_n_n_wf : DotDims.WF S400x32 S32x10000 S400x10000 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x64.size a ≤ S10000x64.size a
  hwx1_3 : ∀ i : grid1.Coords, EltTy.bits .f32 = 32 ∨ (Rect.block (s := S10000x64) S400x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .f32 = 32 ∨ (Rect.block (s := S10000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x128.size a ≤ S32x128.size a
  hwx2_2 : ∀ i : grid2.Coords, EltTy.bits .f32 = 32 ∨ (Rect.block (s := S32x128) S32x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x32.size a ≤ S10000x32.size a
  hwx2_3 : ∀ i : grid2.Coords, EltTy.bits .f32 = 32 ∨ (Rect.block (s := S10000x32) S400x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x32.size a ≤ S10000x32.size a
  hwx2_4 : ∀ i : grid2.Coords, EltTy.bits .f32 = 32 ∨ (Rect.block (s := S10000x32) S400x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x128.size a ≤ S10000x128.size a
  hwx2_5 : ∀ i : grid2.Coords, EltTy.bits .f32 = 32 ∨ (Rect.block (s := S10000x128) S400x128.size (cc2_transform_5 i) (hinb2_5 i)).WholeWords (EltTy.packing .f32)
  hstage3_0 : ∀ j, (stage3_0 j).IsWhole
  hstage3_1 : ∀ j, (stage3_1 j).IsWhole
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x32.size a ≤ S10000x32.size a
  hwx4_0 : ∀ i : grid4.Coords, EltTy.bits .f32 = 32 ∨ (Rect.block (s := S10000x32) S400x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x10000.size a ≤ S32x10000.size a
  hwx4_1 : ∀ i : grid4.Coords, EltTy.bits .f32 = 32 ∨ (Rect.block (s := S32x10000) S32x10000.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x10000.size a ≤ S10000x10000.size a
  hwx4_2 : ∀ i : grid4.Coords, EltTy.bits .f32 = 32 ∨ (Rect.block (s := S10000x10000) S400x10000.size (cc4_transform_2 i) (hinb4_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x64_S400x64_1_0_0_1_n_n : DotDims S400x64 S64x64 S400x64 where
  lhsContracting := [1]
  rhsContracting := [0]
  lhsNonContracting := [0]
  rhsNonContracting := [1]
  lhsBatch := []
  rhsBatch := []
  wf := dot_S400x64_S64x64_S400x64_1_0_0_1_n_n_wf
def dot_S400x32_S32x128_S400x128_1_0_0_1_n_n : DotDims S400x32 S32x128 S400x128 where
  lhsContracting := [1]
  rhsContracting := [0]
  lhsNonContracting := [0]
  rhsNonContracting := [1]
  lhsBatch := []
  rhsBatch := []
  wf := dot_S400x32_S32x128_S400x128_1_0_0_1_n_n_wf
def dot_S400x32_S32x10000_S400x10000_1_0_0_1_n_n : DotDims S400x32 S32x10000 S400x10000 where
  lhsContracting := [1]
  rhsContracting := [0]
  lhsNonContracting := [0]
  rhsNonContracting := [1]
  lhsBatch := []
  rhsBatch := []
  wf := dot_S400x32_S32x10000_S400x10000_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v1) false false (stage0_2 0) (sem0_2 0) (Memref.isWhole_whole _) (hstage0_2 0)

abbrev win0_3 : Pipeline.Window sig grid0 :=
  Pipeline.Window.whole (Memref.whole main_v2) false false (stage0_3 0) (sem0_3 0) (Memref.isWhole_whole _) (hstage0_3 0)

abbrev win0_4 : Pipeline.Window sig grid0 :=
  Pipeline.Window.whole (Memref.whole main_v3) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S400x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S32x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5_0) S400x32.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v5_1) S400x32.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v5_2) S400x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.whole (Memref.whole main_v5_0) false false (stage3_0 0) (sem3_0 0) (Memref.isWhole_whole _) (hstage3_0 0)

abbrev win3_1 : Pipeline.Window sig grid3 :=
  Pipeline.Window.whole (Memref.whole main_v6) true false (stage3_1 0) (sem3_1 0) (Memref.isWhole_whole _) (hstage3_1 0)

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v5_0) S400x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6) S32x10000.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v7) S400x10000.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64x32 : Shape := ⟨2, ![64, 32]⟩
abbrev S32x128 : Shape := ⟨2, ![32, 128]⟩
abbrev S128 : Shape := ⟨1, ![128]⟩
abbrev S_ : Shape := ⟨0, ![]⟩
abbrev S1x128 : Shape := ⟨2, ![1, 128]⟩
abbrev S10000x64 : Shape := ⟨2, ![10000, 64]⟩
abbrev S10000x32 : Shape := ⟨2, ![10000, 32]⟩
abbrev S32x10000 : Shape := ⟨2, ![32, 10000]⟩

abbrev nBuf : Space → Nat
  | .hbm => 72
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64x32, .f32⟩
  | .hbm, ⟨4, _⟩ => ⟨S64x32, .f32⟩
  | .hbm, ⟨5, _⟩ => ⟨S32x128, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S_, .f32⟩
  | .hbm, ⟨18, _⟩ => ⟨S1x128, .f32⟩
  | .hbm, ⟨19, _⟩ => ⟨S1x128, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S1x128, .f32⟩
  | .hbm, ⟨37, _⟩ => ⟨S10000x128, .f32⟩
  | .hbm, ⟨38, _⟩ => ⟨S10000x128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S1x128, .f32⟩
  | .hbm, ⟨44, _⟩ => ⟨S10000x128, .f32⟩
  | .hbm, ⟨45, _⟩ => ⟨S10000x128, .f32⟩
  | .hbm, ⟨46, _⟩ => ⟨S1x128, .f32⟩
  | .hbm, ⟨47, _⟩ => ⟨S10000x128, .f32⟩
  | .hbm, ⟨48, _⟩ => ⟨S10000x128, .f32⟩
  | .hbm, ⟨49, _⟩ => ⟨S1x128, .f32⟩
  | .hbm, ⟨50, _⟩ => ⟨S10000x128, .f32⟩
  | .hbm, ⟨51, _⟩ => ⟨S10000x128, .f32⟩
  | .hbm, ⟨52, _⟩ => ⟨S10000x64, .f32⟩
  | .hbm, ⟨53, _⟩ => ⟨S10000x64, .f32⟩
  | .hbm, ⟨54, _⟩ => ⟨S_, .f32⟩
  | .hbm, ⟨55, _⟩ => ⟨S10000x64, .f32⟩
  | .hbm, ⟨56, _⟩ => ⟨S10000x64, .f32⟩
  | .hbm, ⟨57, _⟩ => ⟨S10000x32, .f32⟩
  | .hbm, ⟨58, _⟩ => ⟨S10000x32, .f32⟩
  | .hbm, ⟨59, _⟩ => ⟨S10000x32, .f32⟩
  | .hbm, ⟨60, _⟩ => ⟨S10000x32, .f32⟩
  | .hbm, ⟨61, _⟩ => ⟨S32x10000, .f32⟩
  | .hbm, ⟨62, _⟩ => ⟨S10000x10000, .f32⟩
  | .hbm, ⟨63, _⟩ => ⟨S10000x128, .f32⟩
  | .hbm, ⟨64, _⟩ => ⟨S_, .f32⟩
  | .hbm, ⟨65, _⟩ => ⟨S_, .f32⟩
  | .hbm, ⟨66, _⟩ => ⟨S10000x128, .f32⟩
  | .hbm, ⟨67, _⟩ => ⟨S10000x128, .i1⟩
  | .hbm, ⟨68, _⟩ => ⟨S_, .f32⟩
  | .hbm, ⟨69, _⟩ => ⟨S10000x128, .f32⟩
  | .hbm, ⟨70, _⟩ => ⟨S10000x128, .f32⟩
  | .hbm, ⟨71, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_cst_3 : Ref sig .tc := ⟨.hbm, 30, rfl⟩
abbrev main_call0_v12 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_call1_cst : Ref sig .tc := ⟨.hbm, 54, rfl⟩
abbrev main_call1_v0 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_2 : Ref sig .tc := ⟨.hbm, 64, rfl⟩
abbrev main_call2_cst : Ref sig .tc := ⟨.hbm, 65, rfl⟩
abbrev main_call2_v0 : Ref sig .tc := ⟨.hbm, 66, rfl⟩
abbrev main_call2_v1 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_v29 : Ref sig .tc := ⟨.hbm, 71, rfl⟩

abbrev nD : Nat := 1
abbrev τ : Topo := Topo.v7x

variable {F : FTy → Type} [FloatOps F]

class Facts₀ : Prop where
  reducesTo_S10000x128_S128_d0 : S10000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S10000x128_0_1 : S1x128.BroadcastsInDim S10000x128 (![0, 1] : Fin 2 → Fin S10000x128.rank)
  bcast_S_S10000x64 : S_.BroadcastsInDim S10000x64 (![] : Fin 0 → Fin S10000x64.rank)
  transposes_S10000x32_S32x10000_1_0 : S10000x32.Transposes [1, 0] S32x10000
  bcast_S_S10000x128 : S_.BroadcastsInDim S10000x128 (![] : Fin 0 → Fin S10000x128.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x10000_S10000x32_S10000x32_1_0_0_1_n_n_wf : DotDims.WF S10000x10000 S10000x32 S10000x32 [1] [0] [0] [1] [] []
  dot_S10000x32_S32x10000_S10000x10000_1_0_0_1_n_n_wf : DotDims.WF S10000x32 S32x10000 S10000x10000 [1] [0] [0] [1] [] []
  dot_S10000x32_S32x128_S10000x128_1_0_0_1_n_n_wf : DotDims.WF S10000x32 S32x128 S10000x128 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x10000_S10000x10000_1_0_0_1_n_n : DotDims S10000x32 S32x10000 S10000x10000 where
  lhsContracting := [1]
  rhsContracting := [0]
  lhsNonContracting := [0]
  rhsNonContracting := [1]
  lhsBatch := []
  rhsBatch := []
  wf := dot_S10000x32_S32x10000_S10000x10000_1_0_0_1_n_n_wf
def dot_S10000x32_S32x128_S10000x128_1_0_0_1_n_n : DotDims S10000x32 S32x128 S10000x128 where
  lhsContracting := [1]
  rhsContracting := [0]
  lhsNonContracting := [0]
  rhsNonContracting := [1]
  lhsBatch := []
  rhsBatch := []
  wf := dot_S10000x32_S32x128_S10000x128_1_0_0_1_n_n_wf

class Facts : Prop extends Facts₀ where

variable [Facts]
-- ==== Proof.Spec.lean ====
/-
  The mathematics both programs compute, as plain functions over the extended reals.

  A graph auto-encoder over a dense adjacency `adj` (10000 x 10000) and node features `x`
  (10000 x 128):
    * the features are normalised column by column (mean and variance over the 10000 rows,
      `eps` added under the square root), scaled by `g` and shifted by `b`;
    * `Y1 = xh W1`, `H = max (adj Y1) 0`, `MU = adj (H W2)`, `LV = adj (H W3)`;
    * `XP = leaky (MU few)` with slope `cslope` below zero, and `AP = MU MUᵀ`.
  The two programs differ in where the scale enters the normalisation, `d * (g / s)` against
  `(d / s) * g`, and in whether `W2` and `W3` are multiplied separately or as the two halves of
  one 64-column matrix. Both differences vanish in the extended reals: the first because the
  deviation `s` is never zero (a sum of squares is non-negative and `eps` is positive), so each
  quotient is a product with `s⁻¹` and products commute; the second term by term.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A rank-2 array of extended reals. -/
abbrev M (a b : Nat) := (⟨2, ![a, b]⟩ : Shape).Idx → EReal

/-- A function of a row and a column as an array. -/
def arr2 {a b : Nat} (f : Fin a → Fin b → EReal) : M a b := fun o => f (o 0) (o 1)

@[simp] theorem arr2_ix2 {a b : Nat} (f : Fin a → Fin b → EReal) (p : Fin a) (q : Fin b) :
    arr2 f (ix2 p q) = f p q := rfl

/-- An array as a function of a row and a column. -/
def cur {a b : Nat} (m : M a b) : Fin a → Fin b → EReal := fun i j => m (ix2 i j)

theorem arr2_cur {a b : Nat} (m : M a b) : arr2 (cur m) = m := by
  funext o; exact congrArg m (eq_ix2 o).symm

/-- The literals of the two programs, as the extended reals their words denote. -/
def zero : EReal := Ideal.ofBits .f32 0x00000000#32
def c1e4 : EReal := Ideal.ofBits .f32 0x461C4000#32
def ceps : EReal := Ideal.ofBits .f32 0x3727C5AC#32
def cslope : EReal := Ideal.ofBits .f32 0x3C23D70A#32

theorem c1e4_eq : c1e4 = ((10000 : ℝ) : EReal) := by
  unfold c1e4; simp [Ideal.ofBits, Ideal.ieee, -EReal.coe_mul]; norm_num

theorem ceps_pos : 0 < ceps := by
  unfold ceps; simp [Ideal.ofBits, Ideal.ieee, -EReal.coe_mul]

/-! ## The normalisation -/

/-- Column mean. -/
def mean (x : M 10000 128) (j : Fin 128) : EReal := Ideal.div (∑ i : Fin 10000, x (ix2 i j)) c1e4

/-- Deviation from the column mean. -/
def dev (x : M 10000 128) (i : Fin 10000) (j : Fin 128) : EReal := x (ix2 i j) - mean x j

/-- Column variance (the mean of the squared deviations). -/
def var (x : M 10000 128) (j : Fin 128) : EReal :=
  Ideal.div (∑ i : Fin 10000, dev x i j * dev x i j) c1e4

/-- Column standard deviation, `eps` under the root. -/
def sd (x : M 10000 128) (j : Fin 128) : EReal := Ideal.sqrt (var x j + ceps)

/-- Normalised features with the scale folded into the divisor first: `d * (g / s) + b`. -/
def xhK (x : M 10000 128) (g b : Fin 128 → EReal) (i : Fin 10000) (j : Fin 128) : EReal :=
  dev x i j * Ideal.div (g j) (sd x j) + b j

/-- Normalised features, divided first and scaled after: `(d / s) * g + b`. -/
def xhR (x : M 10000 128) (g b : Fin 128 → EReal) (i : Fin 10000) (j : Fin 128) : EReal :=
  Ideal.div (dev x i j) (sd x j) * g j + b j

theorem mul_self_nonneg' (a : EReal) : 0 ≤ a * a := by
  rcases le_total 0 a with h | h
  · exact mul_nonneg h h
  · have : a * a = (-a) * (-a) := by rw [neg_mul_neg]
    rw [this]; exact mul_nonneg (EReal.neg_nonneg.mpr h) (EReal.neg_nonneg.mpr h)

theorem var_nonneg (x : M 10000 128) (j : Fin 128) : 0 ≤ var x j := by
  unfold var
  rw [c1e4_eq, Ideal.div_coe (by norm_num)]
  refine mul_nonneg (Finset.sum_nonneg fun i _ => mul_self_nonneg' _) ?_
  exact_mod_cast (by norm_num : (0 : ℝ) ≤ 1 / 10000)

theorem sd_ne_zero (x : M 10000 128) (j : Fin 128) : sd x j ≠ 0 := by
  have hpos : 0 < var x j + ceps :=
    lt_of_lt_of_le ceps_pos (le_add_of_nonneg_left (var_nonneg x j))
  unfold sd
  generalize var x j + ceps = v at hpos
  induction v using EReal.rec with
  | bot => exact absurd hpos (by simp)
  | top => show (⊤ : EReal) ≠ 0; exact EReal.top_ne_zero
  | coe r =>
    have hr : 0 < r := by exact_mod_cast hpos
    show (if r < 0 then (⊥ : EReal) else ((Real.sqrt r : ℝ) : EReal)) ≠ 0
    rw [if_neg (not_lt.mpr hr.le)]
    exact_mod_cast (Real.sqrt_pos.mpr hr).ne'

/-- The two orders of scaling agree: the deviation is never zero, so both quotients are products
    with its inverse. -/
theorem xhK_eq_xhR (x : M 10000 128) (g b : Fin 128 → EReal) : xhK x g b = xhR x g b := by
  funext i j
  unfold xhK xhR Ideal.div
  rw [if_neg (sd_ne_zero x j), if_neg (sd_ne_zero x j)]
  congr 1
  rw [mul_comm (g j), ← mul_assoc]

/-! ## The products -/

/-- Matrix product, row by column. -/
def mm {a k b : Nat} (l : Fin a → Fin k → EReal) (r : Fin k → Fin b → EReal) : Fin a → Fin b → EReal :=
  fun i j => ∑ t : Fin k, l i t * r t j

/-- Rectifier: the larger of the entry and zero. -/
def relu {a b : Nat} (f : Fin a → Fin b → EReal) : Fin a → Fin b → EReal := fun i j => max (f i j) zero

/-- Leaky rectifier: the entry where it is at least zero, `cslope` times it elsewhere. -/
def leaky {a b : Nat} (f : Fin a → Fin b → EReal) : Fin a → Fin b → EReal :=
  fun i j => Scalar.select (FloatOps.cmpf (F := Ideal) (φ := .f32) .oge (f i j) zero) (f i j) (cslope * f i j)

def Y1 (xh : Fin 10000 → Fin 128 → EReal) (w1 : M 128 64) : Fin 10000 → Fin 64 → EReal := mm xh (cur w1)
def H (adj : M 10000 10000) (y1 : Fin 10000 → Fin 64 → EReal) : Fin 10000 → Fin 64 → EReal :=
  relu (mm (cur adj) y1)
def MU (adj : M 10000 10000) (h : Fin 10000 → Fin 64 → EReal) (w : M 64 32) : Fin 10000 → Fin 32 → EReal :=
  mm (cur adj) (mm h (cur w))
def XP (mu : Fin 10000 → Fin 32 → EReal) (few : M 32 128) : Fin 10000 → Fin 128 → EReal :=
  leaky (mm mu (cur few))
def AP (mu : Fin 10000 → Fin 32 → EReal) : Fin 10000 → Fin 10000 → EReal :=
  fun i j => ∑ t : Fin 32, mu i t * mu j t

/-! ## The two weight matrices side by side -/

/-- `W2` in columns 0..31 and `W3` in columns 32..63. -/
def w23 (w2 w3 : M 64 32) : Fin 64 → Fin 64 → EReal := fun l q =>
  if h : q.val < 32 then w2 (ix2 l ⟨q.val, h⟩) else w3 (ix2 l ⟨q.val - 32, by have := q.isLt; omega⟩)

/-- `adj (H [W2|W3])`: 64 columns, the first 32 are `MU` with `W2`, the last 32 with `W3`. -/
def MV (adj : M 10000 10000) (h : Fin 10000 → Fin 64 → EReal) (w2 w3 : M 64 32) :
    Fin 10000 → Fin 64 → EReal := mm (cur adj) (mm h (w23 w2 w3))

theorem MV_left (adj : M 10000 10000) (h : Fin 10000 → Fin 64 → EReal) (w2 w3 : M 64 32)
    (i : Fin 10000) (q : Fin 32) : MV adj h w2 w3 i ⟨q.val, by have := q.isLt; omega⟩ = MU adj h w2 i q := by
  unfold MV MU mm w23 cur
  refine Finset.sum_congr rfl fun t _ => ?_
  congr 1
  refine Finset.sum_congr rfl fun l _ => ?_
  rw [dif_pos (show (⟨q.val, _⟩ : Fin 64).val < 32 from q.isLt)]

theorem MV_right (adj : M 10000 10000) (h : Fin 10000 → Fin 64 → EReal) (w2 w3 : M 64 32)
    (i : Fin 10000) (q : Fin 32) : MV adj h w2 w3 i ⟨q.val + 32, by have := q.isLt; omega⟩ = MU adj h w3 i q := by
  unfold MV MU mm w23 cur
  refine Finset.sum_congr rfl fun t _ => ?_
  congr 1

end Cert.Spec

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Reg0.lean ====
import proofs.«165724_g68255620268442_cont_9to1_m_670_4_alg».proof.Proof.Gen.KernelIdeal.Frame
import proofs.«165724_g68255620268442_cont_9to1_m_670_4_alg».proof.Proof.Spec
import proofs.«165724_g68255620268442_cont_9to1_m_670_4_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-! ## The payload at an index -/

section Payload

/-- A column's sum: the reduction over the rows, read at column `j`, is the sum of the column's entries. -/
theorem colsum_apply (src : FVec Ideal S10000x128 .f32) (j : Fin 128) :
    multiReduction (F := Ideal) .add [0] S128 src 0x00000000#32 reduces_S10000x128_S128 (.inl rfl) rfl (ix1 j)
      = ∑ i : Fin 10000, src (ix2 i j) := by
  refine (Ideal.multiReduction_add_single src _ reduces_S10000x128_S128 _ _ (ix1 j)).trans ?_
  refine Finset.sum_congr rfl fun i _ => congrArg src ?_
  funext a; apply Fin.ext
  match a with
  | ⟨0, _⟩ => rfl
  | ⟨1, _⟩ => rfl

/-- The column sums laid out as one row and divided by the number of rows. -/
def rowMeanOfSums (src : FVec Ideal S10000x128 .f32) : FVec Ideal S1x128 .f32 :=
  divf (shapeCast S1x128 (multiReduction (F := Ideal) .add [0] S128 src 0x00000000#32 reduces_S10000x128_S128 (.inl rfl) rfl) shapeCasts_S128_S1x128)
    (broadcast S1x128 (Scalar.ofBits (F := Ideal) .f32 0x461C4000#32))

theorem rowMeanOfSums_apply (src : FVec Ideal S10000x128 .f32) (u : Fin 1) (j : Fin 128) :
    rowMeanOfSums src (ix2 u j) = Ideal.div (∑ i : Fin 10000, src (ix2 i j)) c1e4 := by
  unfold rowMeanOfSums
  rw [divf_apply, shapeCast_a_1a_apply, colsum_apply]
  rfl

/-- The column means of the features. -/
theorem meanV_apply (x : FVec Ideal S10000x128 .f32) (u : Fin 1) (j : Fin 128) :
    rowMeanOfSums x (ix2 u j) = mean x j := rowMeanOfSums_apply x u j

/-- The deviations: every entry less its column's mean. -/
def devV (x : FVec Ideal S10000x128 .f32) : FVec Ideal S10000x128 .f32 :=
  subf x (broadcastTo S10000x128 (rowMeanOfSums x) broadcasts_S1x128_S10000x128)

theorem devV_apply (x : FVec Ideal S10000x128 .f32) (p : Fin 10000) (j : Fin 128) :
    devV x (ix2 p j) = dev x p j := by
  unfold devV dev
  rw [subf_apply, broadcastTo_1b_ab_apply, meanV_apply]

/-- The column standard deviations: the mean of the squared deviations, `eps` added, under the root. -/
def sdV (x : FVec Ideal S10000x128 .f32) : FVec Ideal S1x128 .f32 :=
  sqrt (addf (rowMeanOfSums (mulf (devV x) (devV x))) (broadcast S1x128 (Scalar.ofBits (F := Ideal) .f32 0x3727C5AC#32)))

theorem sdV_apply (x : FVec Ideal S10000x128 .f32) (u : Fin 1) (j : Fin 128) :
    sdV x (ix2 u j) = sd x j := by
  unfold sdV sd var
  show Ideal.sqrt (rowMeanOfSums (mulf (devV x) (devV x)) (ix2 u j) + ceps) = _
  rw [rowMeanOfSums_apply]
  have e : (∑ i : Fin 10000, mulf (devV x) (devV x) (ix2 i j)) = ∑ i : Fin 10000, dev x i j * dev x i j :=
    Finset.sum_congr rfl fun i _ => by rw [mulf_apply, devV_apply]
  rw [e]

/-- The normalised features: the deviation times (scale over standard deviation), plus the shift. -/
def xhV (x : FVec Ideal S10000x128 .f32) (g b : FVec Ideal S1x128 .f32) : FVec Ideal S10000x128 .f32 :=
  addf (mulf (devV x) (broadcastTo S10000x128 (divf (shapeCast S1x128 g shapeCasts_S1x128_S1x128) (sdV x)) broadcasts_S1x128_S10000x128))
    (broadcastTo S10000x128 (shapeCast S1x128 b shapeCasts_S1x128_S1x128) broadcasts_S1x128_S10000x128)

theorem xhV_apply (x : FVec Ideal S10000x128 .f32) (g b : FVec Ideal S1x128 .f32) (p : Fin 10000) (j : Fin 128) :
    xhV x g b (ix2 p j) = xhK x (fun j => g (ix2 0 j)) (fun j => b (ix2 0 j)) p j := by
  unfold xhV xhK
  rw [addf_apply, mulf_apply, broadcastTo_1b_ab_apply, broadcastTo_1b_ab_apply, divf_apply,
    shapeCast_self, shapeCast_self, devV_apply, sdV_apply]

/-- The payload is the product of the normalised features by the weights, accumulated from zero. -/
theorem pay_eq (x : Vec Ideal S10000x128 .f32) (g b : Vec Ideal S1x128 .f32) (w1 : Vec Ideal S128x64 .f32) :
    k0_pay1 (F := Ideal) x g b w1
      = matmul (φ₁ := .f32) (φ₂ := .f32) dot_S10000x128_S128x64_S10000x64_1_0_0_1_n_n none (xhV x g b) w1 (constant S10000x64 .f32 0x00000000#32) := rfl

/-- The payload at row `p`, column `q`. -/
theorem pay_apply (x : Vec Ideal S10000x128 .f32) (g b : Vec Ideal S1x128 .f32) (w1 : Vec Ideal S128x64 .f32)
    (p : Fin 10000) (q : Fin 64) :
    k0_pay1 (F := Ideal) x g b w1 (ix2 p q)
      = Y1 (xhK x (fun j => g (ix2 0 j)) (fun j => b (ix2 0 j))) w1 p q := by
  rw [pay_eq]
  refine (Dot2.matmul_zero_mm_apply dot_S10000x128_S128x64_S10000x64_1_0_0_1_n_n_wf none (xhV x g b) w1 p q).trans ?_
  unfold Y1 mm cur
  refine Finset.sum_congr rfl fun k _ => ?_
  rw [xhV_apply]

end Payload

variable (V : (c : Dev nD) → (b : Ref sig .tc) → Buf (Elt Ideal) ((c : Thread nD τ).loc b))

/-! ## From the block to the array -/

theorem hz0 : (![0, 0] : Fin 2 → Nat) = fun _ => 0 := funext fun a => by fin_cases a <;> rfl

/-- The grid has one point and every window's block is its whole array: every block index is 0. -/
theorem idx_zero0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The features' block is the features' array. -/
theorem blk_x (c : Dev nD) (t : Fin cfg0.N) : iblk0 V c 0 t = V c main_arg0 := by
  obtain ⟨e0, e1, -⟩ := idx_zero0 t
  funext y
  show V c main_arg0 (((cfg0.win 0).blk t).view.emb y) = V c main_arg0 y
  refine congrArg (V c main_arg0) ?_
  funext a; apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The weights' block is the weights' array. -/
theorem blk_w1 (c : Dev nD) (t : Fin cfg0.N) : iblk0 V c 1 t = V c main_arg2 := by
  obtain ⟨-, -, e0, e1, -⟩ := idx_zero0 t
  funext y
  show V c main_arg2 (((cfg0.win 1).blk t).view.emb y) = V c main_arg2 y
  refine congrArg (V c main_arg2) ?_
  funext a; apply Fin.ext
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- The scale's block is the scale's array. -/
theorem blk_g (c : Dev nD) (t : Fin cfg0.N) : iblk0 V c 2 t = V c main_v1 := by
  obtain ⟨-, -, -, -, e0, e1, -⟩ := idx_zero0 t
  funext y
  show V c main_v1 (((cfg0.win 2).blk t).view.emb y) = V c main_v1 y
  refine congrArg (V c main_v1) ?_
  funext a; apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- The shift's block is the shift's array. -/
theorem blk_b (c : Dev nD) (t : Fin cfg0.N) : iblk0 V c 3 t = V c main_v2 := by
  obtain ⟨-, -, -, -, -, -, e0, e1, -⟩ := idx_zero0 t
  funext y
  show V c main_v2 (((cfg0.win 3).blk t).view.emb y) = V c main_v2 y
  refine congrArg (V c main_v2) ?_
  funext a; apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- What the one point writes back is the whole of the product of the normalised features by `W1`. -/
theorem flushed0_eq (c : Dev nD) (t : Fin cfg0.N) :
    (dat0 V c).flushed 4 t = ((cfg0.win 4).blk t).view.read (Elt Ideal)
      (arr2 (Y1 (xhK (V c main_arg0) (fun j => V c main_v1 (ix2 0 j)) (fun j => V c main_v2 (ix2 0 j))) (V c main_arg2))) := by
  show (cfg0.win 4).cut (grid0.coords t) ((dat0 V c).after 4 t) = _
  rw [after0_4]
  unfold out0_4
  rw [View.canon_unit_zero hz0]
  simp only [View.ld_unit_zero (S := S10000x128) hz0, View.ld_unit_zero (S := S1x128) hz0,
    View.ld_unit_zero (S := S128x64) hz0]
  rw [blk_x, blk_w1, blk_g, blk_b]
  obtain ⟨-, -, -, -, -, -, -, -, e0, e1⟩ := idx_zero0 t
  funext y
  obtain ⟨p, q, rfl⟩ : ∃ (p : Fin 10000) (q : Fin 64), y = ix2 p q := ⟨y 0, y 1, eq_ix2 y⟩
  show k0_pay1 (F := Ideal) (V c main_arg0) (V c main_v1) (V c main_v2) (V c main_arg2) (ix2 p q)
    = arr2 (Y1 (xhK (V c main_arg0) (fun j => V c main_v1 (ix2 0 j)) (fun j => V c main_v2 (ix2 0 j))) (V c main_arg2))
        (((cfg0.win 4).blk t).view.emb (ix2 p q))
  have hemb : ((cfg0.win 4).blk t).view.emb (ix2 p q) = ix2 p q := by
    funext a; apply Fin.ext
    match a with
    | ⟨0, _⟩ => show win0_4.index t (0 : Fin 2) * 10000 + 1 * p.val = p.val; omega
    | ⟨1, _⟩ => show win0_4.index t (1 : Fin 2) * 64 + 1 * q.val = q.val; omega
  rw [hemb, arr2_ix2]
  exact pay_apply (V c main_arg0) (V c main_v1) (V c main_v2) (V c main_arg2) p q

/-- An index of the array is in the point's block iff each coordinate is in the block's range on its axis. -/
theorem mem_blk0 (t : Fin cfg0.N) (i : S10000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v3).slice (win0_4.rect t)).set ↔ _
  rw [View.set_slice_whole, Rect.mem_set_unit]
  exact Iff.rfl

/-- The one block covers the array. -/
theorem cover0 (i : S10000x64.Idx) :
    ∃ t : Fin cfg0.N, (cfg0.win 4).flush t = true ∧ i ∈ ((cfg0.win 4).blk t).view.set := by
  refine ⟨t0_0, flush0_4 t0_0, ?_⟩
  rw [mem_blk0]
  obtain ⟨-, -, -, -, -, -, -, -, e0, e1⟩ := idx_zero0 t0_0
  have hi0 : (i 0).val < 10000 := (i 0).isLt
  have hi1 : (i 1).val < 64 := (i 1).isLt
  intro a
  match a with
  | ⟨0, _⟩ => show win0_4.index t0_0 (0 : Fin 2) * 10000 ≤ (i 0).val ∧ (i 0).val < win0_4.index t0_0 (0 : Fin 2) * 10000 + 10000; omega
  | ⟨1, _⟩ => show win0_4.index t0_0 (1 : Fin 2) * 64 ≤ (i 1).val ∧ (i 1).val < win0_4.index t0_0 (1 : Fin 2) * 64 + 64; omega

/-- Region 0 leaves in its output array the product of the normalised features by `W1`. -/
theorem final0 (c : Dev nD) : (dat0 V c).arrAt 4 cfg0.N =
    arr2 (Y1 (xhK (V c main_arg0) (fun j => V c main_v1 (ix2 0 j)) (fun j => V c main_v2 (ix2 0 j))) (V c main_arg2)) :=
  (dat0 V c).arrAt_eq_of_cover 4 _ (fun t _ => flushed0_eq V c t) cover0

end Cert.KernelIdeal.Val

end
-- ==== Proof.Reg1.lean ====
import proofs.«165724_g68255620268442_cont_9to1_m_670_4_alg».proof.Proof.Gen.KernelIdeal.Frame
import proofs.«165724_g68255620268442_cont_9to1_m_670_4_alg».proof.Proof.Spec
import proofs.«165724_g68255620268442_cont_9to1_m_670_4_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))
/-- The payload at row p, column q: the block of adj times y1, rectified, times the weight matrix. -/
theorem pay1_apply (x0 : Vec Ideal S400x10000 .f32) (x1 : Vec Ideal S10000x64 .f32) (x2 : Vec Ideal S64x64 .f32)
    (p : Fin 400) (q : Fin 64) :
    k1_pay1 (F := Ideal) x0 x1 x2 (ix2 p q)
      = ∑ l : Fin 64, max (∑ k : Fin 10000, x0 (ix2 p k) * x1 (ix2 k l)) zero * x2 (ix2 l q) := by
  unfold k1_pay1
  rw [shapeCast_self, shapeCast_self]
  refine (Dot2.matmul_zero_mm_apply dot_S400x64_S64x64_S400x64_1_0_0_1_n_n_wf none _ _ p q).trans ?_
  refine Finset.sum_congr rfl fun l _ => ?_
  congr 1
  rw [maximumf_apply, broadcast_apply]
  congr 1
  exact Dot2.matmul_zero_mm_apply dot_S400x10000_S10000x64_S400x64_1_0_0_1_n_n_wf none _ _ p l

/-- The payload of a block whose row p is row r of adj, with y1 and the weights whole, is entry (r, q) of
    the whole-array product. -/
theorem pay1_at (x0 : Vec Ideal S400x10000 .f32) (x1 : Vec Ideal S10000x64 .f32) (x2 : Vec Ideal S64x64 .f32)
    (A : M 10000 10000) (Y : M 10000 64) (W : M 64 64) (p : Fin 400) (q : Fin 64) (r : Fin 10000)
    (hA : ∀ k : Fin 10000, x0 (ix2 p k) = A (ix2 r k))
    (hY : ∀ (k : Fin 10000) (l : Fin 64), x1 (ix2 k l) = Y (ix2 k l))
    (hW : ∀ (l : Fin 64) (q : Fin 64), x2 (ix2 l q) = W (ix2 l q)) :
    k1_pay1 (F := Ideal) x0 x1 x2 (ix2 p q) = arr2 (mm (relu (mm (cur A) (cur Y))) (cur W)) (ix2 r q) := by
  rw [pay1_apply, arr2_ix2]
  unfold mm relu cur
  refine Finset.sum_congr rfl fun l _ => ?_
  rw [hW]
  congr 2
  refine Finset.sum_congr rfl fun k _ => ?_
  rw [hA, hY]

theorem hz1 : (![0, 0] : Fin 2 → Nat) = fun _ => 0 := funext fun a => by fin_cases a <;> rfl

/-- The index maps over the grid: the adj window and the output window move with the point along the rows,
    the other two windows stay at block 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The whole-array result of the region. -/
abbrev G1 (c : Dev nD) : M 10000 64 :=
  arr2 (mm (relu (mm (cur (V c main_arg1)) (cur (V c main_v3)))) (cur (V c main_v0)))

/-- What point t writes back is block t of the whole-array result. -/
theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz1]
  simp only [View.ld_unit_zero (S := S400x10000) hz1, View.ld_unit_zero (S := S10000x64) hz1, View.ld_unit_zero (S := S64x64) hz1]
  obtain ⟨e0, e1, e2, e3, e4, e5, e6, e7⟩ := idx_facts1 t
  have ht : t.val < 25 := lt_of_lt_of_eq t.isLt N_1
  refine funext fun (j : S400x64.Idx) => ?_
  obtain ⟨p, q, rfl⟩ : ∃ (p : Fin 400) (q : Fin 64), j = ix2 p q := ⟨j 0, j 1, eq_ix2 j⟩
  have hr : t.val * 400 + p.val < 10000 := by have := p.isLt; omega
  show k1_pay1 (F := Ideal) (iblk1 V c 0 t) (iblk1 V c 1 t) (iblk1 V c 2 t) (ix2 p q)
      = G1 V c (((cfg1.win 3).blk t).view.emb (ix2 p q))
  have hemb : ((cfg1.win 3).blk t).view.emb (ix2 p q) = (ix2 ⟨t.val * 400 + p.val, hr⟩ q : S10000x64.Idx) := by
    funext a; apply Fin.ext
    match a with
    | ⟨0, _⟩ => show win1_3.index t (0 : Fin 2) * 400 + 1 * p.val = t.val * 400 + p.val; omega
    | ⟨1, _⟩ => show win1_3.index t (1 : Fin 2) * 64 + 1 * q.val = q.val; omega
  rw [hemb]
  refine pay1_at (iblk1 V c 0 t) (iblk1 V c 1 t) (iblk1 V c 2 t) (V c main_arg1) (V c main_v3) (V c main_v0)
    p q ⟨t.val * 400 + p.val, hr⟩ ?_ ?_ ?_
  · intro k
    show V c main_arg1 (((cfg1.win 0).blk t).view.emb (ix2 p k)) = V c main_arg1 (ix2 ⟨t.val * 400 + p.val, hr⟩ k)
    refine congrArg (V c main_arg1 : S10000x10000.Idx → EReal) ?_
    funext a; apply Fin.ext
    match a with
    | ⟨0, _⟩ => show win1_0.index t (0 : Fin 2) * 400 + 1 * p.val = t.val * 400 + p.val; omega
    | ⟨1, _⟩ => show win1_0.index t (1 : Fin 2) * 10000 + 1 * k.val = k.val; omega
  · intro k l
    show V c main_v3 (((cfg1.win 1).blk t).view.emb (ix2 k l)) = V c main_v3 (ix2 k l)
    refine congrArg (V c main_v3 : S10000x64.Idx → EReal) ?_
    funext a; apply Fin.ext
    match a with
    | ⟨0, _⟩ => show win1_1.index t (0 : Fin 2) * 10000 + 1 * k.val = k.val; omega
    | ⟨1, _⟩ => show win1_1.index t (1 : Fin 2) * 64 + 1 * l.val = l.val; omega
  · intro l q'
    show V c main_v0 (((cfg1.win 2).blk t).view.emb (ix2 l q')) = V c main_v0 (ix2 l q')
    refine congrArg (V c main_v0 : S64x64.Idx → EReal) ?_
    funext a; apply Fin.ext
    match a with
    | ⟨0, _⟩ => show win1_2.index t (0 : Fin 2) * 64 + 1 * l.val = l.val; omega
    | ⟨1, _⟩ => show win1_2.index t (1 : Fin 2) * 64 + 1 * q'.val = q'.val; omega

/-- An index of the output array is in point t's block iff each coordinate is in the block's range on its axis. -/
theorem mem_blk1 (t : Fin cfg1.N) (i : S10000x64.Idx) :
    i ∈ ((cfg1.win 3).blk t).view.set ↔ ∀ a : Fin 2, win1_3.index t a * S400x64.size a ≤ (i a).val ∧ (i a).val < win1_3.index t a * S400x64.size a + S400x64.size a := by
  show i ∈ ((View.whole main_v4).slice (win1_3.rect t)).set ↔ _
  rw [View.set_slice_whole, Rect.mem_set_unit]
  exact Iff.rfl

/-- Every index of the output array is in the block of the point its row falls in: row r in block r / 400. -/
theorem cover1 (i : S10000x64.Idx) :
    ∃ t : Fin cfg1.N, (cfg1.win 3).flush t = true ∧ i ∈ ((cfg1.win 3).blk t).view.set := by
  have hi0 : (i 0).val < 10000 := (i 0).isLt
  have hi1 : (i 1).val < 64 := (i 1).isLt
  have hN : cfg1.N = 25 := N_1
  let t : Fin cfg1.N := ⟨(i 0).val / 400, by rw [hN]; omega⟩
  obtain ⟨-, -, -, -, -, -, e6, e7⟩ := idx_facts1 t
  have e6' : win1_3.index t (0 : Fin 2) = (i 0).val / 400 := e6
  refine ⟨t, flush1_3 t, ?_⟩
  rw [mem_blk1]
  intro a
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 64 ≤ (i 1).val ∧ (i 1).val < win1_3.index t (1 : Fin 2) * 64 + 64; omega

/-- Region 1 leaves in its output array `max (adj y1) 0` times the 64-column weight matrix. -/
theorem final1 (c : Dev nD) : (dat1 V c).arrAt 3 cfg1.N =
    arr2 (mm (relu (mm (cur (V c main_arg1)) (cur (V c main_v3)))) (cur (V c main_v0))) :=
  (dat1 V c).arrAt_eq_of_cover 3 (G1 V c) (fun t _ => flushed1_eq V c t) cover1

end Cert.KernelIdeal.Val

end
-- ==== Proof.Reg2.lean ====
import proofs.«165724_g68255620268442_cont_9to1_m_670_4_alg».proof.Proof.Gen.KernelIdeal.Frame
import proofs.«165724_g68255620268442_cont_9to1_m_670_4_alg».proof.Proof.Spec
import proofs.«165724_g68255620268442_cont_9to1_m_670_4_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

open scoped BigOperators

/-! # Region 2: one block of 400 rows of `adj` against the whole of `y2`, and the product's two halves

  At grid point `t` (25 points) the body multiplies rows `400 t .. 400 t + 399` of `adj` (10000 x 10000) by
  `y2` (10000 x 64), stores the product's columns 0..31 and 32..63 into two 10000 x 32 arrays, and stores the leaky
  rectifier of (columns 0..31) times `few` (32 x 128) into a 10000 x 128 array, each at rows `400 t ..`. Entry by
  entry a matrix product is a sum over the contracted index with no order left in it, so each block is the
  restriction of ONE whole-array function, and the 25 blocks of 400 rows fill the 10000 rows. -/

namespace Reg2

/-- The zero offsets of a whole-block access, as a constant function. -/
theorem hz : (![0, 0] : Fin 2 → Nat) = fun _ => 0 := funext fun a => by fin_cases a <;> rfl

/-! ## The payloads at an index -/

/-- A block of 400 rows of `adj` times `y2`, entry by entry. -/
theorem pay1_apply (x0 : Vec Ideal S400x10000 .f32) (x1 : Vec Ideal S10000x64 .f32) (p : Fin 400) (q : Fin 64) :
    k2_pay1 (F := Ideal) x0 x1 (ix2 p q) = ∑ k : Fin 10000, x0 (ix2 p k) * x1 (ix2 k q) := by
  unfold k2_pay1
  rw [shapeCast_self]
  exact Dot2.matmul_zero_mm_apply dot_S400x10000_S10000x64_S400x64_1_0_0_1_n_n_wf none x0 x1 p q

/-- A column of the left half of a 64-column array. -/
abbrev colL (q : Fin 32) : Fin 64 := ⟨q.val, by have := q.isLt; omega⟩
/-- A column of the right half of a 64-column array. -/
abbrev colR (q : Fin 32) : Fin 64 := ⟨q.val + 32, by have := q.isLt; omega⟩

/-- The slice of columns 0..31 reads column `q`. -/
theorem sliceL_apply (x : Vec Ideal S400x64 .f32) (p : Fin 400) (q : Fin 32) :
    extractStridedSlice S400x32 ![0, 0] x slices_S400x64_o0_0_S400x32 (ix2 p q) = x (ix2 p (colL q)) :=
  extractStridedSlice_apply (s := S400x64) (t := S400x32) ![0, 0] x slices_S400x64_o0_0_S400x32 (ix2 p q) (ix2 p (colL q)) fun a => by
    match a with
    | ⟨0, _⟩ => show p.val = 0 + p.val; omega
    | ⟨1, _⟩ => show q.val = 0 + q.val; omega

/-- The slice of columns 32..63 reads column `q + 32`. -/
theorem sliceR_apply (x : Vec Ideal S400x64 .f32) (p : Fin 400) (q : Fin 32) :
    extractStridedSlice S400x32 ![0, 32] x slices_S400x64_o0_32_S400x32 (ix2 p q) = x (ix2 p (colR q)) :=
  extractStridedSlice_apply (s := S400x64) (t := S400x32) ![0, 32] x slices_S400x64_o0_32_S400x32 (ix2 p q) (ix2 p (colR q)) fun a => by
    match a with
    | ⟨0, _⟩ => show p.val = 0 + p.val; omega
    | ⟨1, _⟩ => show q.val + 32 = 32 + q.val; omega

/-- Columns 0..31 of the block product. -/
theorem pay2_apply (x0 : Vec Ideal S400x10000 .f32) (x1 : Vec Ideal S10000x64 .f32) (p : Fin 400) (q : Fin 32) :
    k2_pay2 (F := Ideal) x0 x1 (ix2 p q) = ∑ k : Fin 10000, x0 (ix2 p k) * x1 (ix2 k (colL q)) := by
  unfold k2_pay2
  exact (sliceL_apply (k2_pay1 (F := Ideal) x0 x1) p q).trans (pay1_apply x0 x1 p (colL q))

/-- Columns 32..63 of the block product. -/
theorem pay3_apply (x0 : Vec Ideal S400x10000 .f32) (x1 : Vec Ideal S10000x64 .f32) (p : Fin 400) (q : Fin 32) :
    k2_pay3 (F := Ideal) x0 x1 (ix2 p q) = ∑ k : Fin 10000, x0 (ix2 p k) * x1 (ix2 k (colR q)) := by
  unfold k2_pay3
  exact (sliceR_apply (k2_pay1 (F := Ideal) x0 x1) p q).trans (pay1_apply x0 x1 p (colR q))

/-- The leaky rectifier of (columns 0..31 of the block product) times `few`: the comparison with zero selects the
    entry or `cslope` times it, the slope on the left. -/
theorem pay4_apply (x0 : Vec Ideal S400x10000 .f32) (x1 : Vec Ideal S10000x64 .f32) (x2 : Vec Ideal S32x128 .f32)
    (p : Fin 400) (q : Fin 128) :
    k2_pay4 (F := Ideal) x0 x1 x2 (ix2 p q)
      = leaky (mm (fun i (r : Fin 32) => k2_pay2 (F := Ideal) x0 x1 (ix2 i r)) (cur (x2 : M 32 128))) p q := by
  have e : FloatOps.matmul dot_S400x32_S32x128_S400x128_1_0_0_1_n_n none (k2_pay2 (F := Ideal) x0 x1)
        (x2 : FVec Ideal S32x128 .f32) (constant S400x128 .f32 0x00000000#32) (ix2 p q)
      = mm (fun i (r : Fin 32) => k2_pay2 (F := Ideal) x0 x1 (ix2 i r)) (cur (x2 : M 32 128)) p q :=
    Dot2.matmul_zero_mm_apply (φ₁ := .f32) (φ₂ := .f32) dot_S400x32_S32x128_S400x128_1_0_0_1_n_n_wf none
      (k2_pay2 (F := Ideal) x0 x1) x2 p q
  unfold k2_pay4 leaky
  exact congrArg (fun z : EReal => Scalar.select (FloatOps.cmpf (F := Ideal) (φ := .f32) .oge z zero) z (cslope * z)) e

/-! ## The index maps over the grid -/

/-- The grid has 25 points; at point `t` the row-blocked windows (adj, the three outputs) sit at block `t` of the
    rows and block 0 of the columns, the whole-array windows (`y2`, `few`) at block 0 of both axes. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Row `p` of block `t` is row `400 t + p` of the array. -/
abbrev rowOf (t : Fin cfg2.N) (p : Fin 400) : Fin 10000 :=
  ⟨t.val * 400 + p.val, by have h : t.val < 25 := lt_of_lt_of_eq t.isLt N_2; have := p.isLt; omega⟩

/-! ## The input blocks as parts of their arrays -/

/-- Block `t` of `adj`: its rows `400 t .. 400 t + 399`, all columns. -/
theorem adj_blk (c : Dev nD) (t : Fin cfg2.N) (p : Fin 400) (k : Fin 10000) :
    (iblk2 V c 0 t : Vec Ideal S400x10000 .f32) (ix2 p k) = (V c main_arg1 : M 10000 10000) (ix2 (rowOf t p) k) := by
  obtain ⟨e0, e1, -⟩ := idx_facts t
  unfold iblk2
  rw [View.read_apply]
  show (V c main_arg1 : M 10000 10000) _ = _
  congr 1
  funext a
  apply Fin.ext
  match a with
  | ⟨0, _⟩ => show win2_0.index t (0 : Fin 2) * 400 + 1 * p.val = t.val * 400 + p.val; rw [e0]; omega
  | ⟨1, _⟩ => show win2_0.index t (1 : Fin 2) * 10000 + 1 * k.val = k.val; rw [e1]; omega

/-- The one block of `y2` is the whole array. -/
theorem y2_blk (c : Dev nD) (t : Fin cfg2.N) (k : Fin 10000) (q : Fin 64) :
    (iblk2 V c 1 t : Vec Ideal S10000x64 .f32) (ix2 k q) = (V c main_v4 : M 10000 64) (ix2 k q) := by
  obtain ⟨-, -, e0, e1, -⟩ := idx_facts t
  unfold iblk2
  rw [View.read_apply]
  show (V c main_v4 : M 10000 64) _ = _
  congr 1
  funext a
  apply Fin.ext
  match a with
  | ⟨0, _⟩ => show win2_1.index t (0 : Fin 2) * 10000 + 1 * k.val = k.val; rw [e0]; omega
  | ⟨1, _⟩ => show win2_1.index t (1 : Fin 2) * 64 + 1 * q.val = q.val; rw [e1]; omega

/-- The one block of `few` is the whole array. -/
theorem few_blk (c : Dev nD) (t : Fin cfg2.N) (k : Fin 32) (q : Fin 128) :
    (iblk2 V c 2 t : Vec Ideal S32x128 .f32) (ix2 k q) = (V c main_arg5 : M 32 128) (ix2 k q) := by
  obtain ⟨-, -, -, -, e0, e1, -⟩ := idx_facts t
  unfold iblk2
  rw [View.read_apply]
  show (V c main_arg5 : M 32 128) _ = _
  congr 1
  funext a
  apply Fin.ext
  match a with
  | ⟨0, _⟩ => show win2_2.index t (0 : Fin 2) * 32 + 1 * k.val = k.val; rw [e0]; omega
  | ⟨1, _⟩ => show win2_2.index t (1 : Fin 2) * 128 + 1 * q.val = q.val; rw [e1]; omega

/-! ## The block product as rows of `adj y2` -/

/-- Entry `(p, q)` of the left half of block `t`'s product is entry `(400 t + p, q)` of `adj y2`: the block of
    `adj` is its rows `400 t ..`, the block of `y2` is all of it. -/
theorem blk_prodL (c : Dev nD) (t : Fin cfg2.N) (p : Fin 400) (q : Fin 32) :
    k2_pay2 (F := Ideal) (iblk2 V c 0 t) (iblk2 V c 1 t) (ix2 p q)
      = mm (cur (V c main_arg1)) (cur (V c main_v4)) (rowOf t p) (colL q) := by
  refine (pay2_apply (iblk2 V c 0 t) (iblk2 V c 1 t) p q).trans ?_
  unfold mm cur
  exact Finset.sum_congr rfl fun k _ => congrArg₂ (· * ·) (adj_blk V c t p k) (y2_blk V c t k (colL q))

/-- The same for the right half: entry `(400 t + p, q + 32)` of `adj y2`. -/
theorem blk_prodR (c : Dev nD) (t : Fin cfg2.N) (p : Fin 400) (q : Fin 32) :
    k2_pay3 (F := Ideal) (iblk2 V c 0 t) (iblk2 V c 1 t) (ix2 p q)
      = mm (cur (V c main_arg1)) (cur (V c main_v4)) (rowOf t p) (colR q) := by
  refine (pay3_apply (iblk2 V c 0 t) (iblk2 V c 1 t) p q).trans ?_
  unfold mm cur
  exact Finset.sum_congr rfl fun k _ => congrArg₂ (· * ·) (adj_blk V c t p k) (y2_blk V c t k (colR q))

/-! ## Output window 3: columns 0..31 of `adj y2` -/

/-- Columns 0..31 of `adj y2`, as an array. -/
abbrev G3 (c : Dev nD) : M 10000 32 :=
  arr2 (fun i (q : Fin 32) => mm (cur (V c main_arg1)) (cur (V c main_v4)) i ⟨q.val, by have := q.isLt; omega⟩)

/-- Point `t` writes back block `t` of that array. -/
theorem flushed3_eq (c : Dev nD) (t : Fin cfg2.N) :
    (dat2 V c).flushed 3 t = ((cfg2.win 3).blk t).view.read (Elt Ideal) (G3 V c) := by
  show (cfg2.win 3).cut (grid2.coords t) ((dat2 V c).after 3 t) = _
  rw [after2_3]
  unfold out2_3
  rw [View.canon_unit_zero hz]
  simp only [View.ld_unit_zero (S := S400x10000) hz, View.ld_unit_zero (S := S10000x64) hz]
  obtain ⟨-, -, -, -, -, -, e0, e1, -⟩ := idx_facts t
  funext j
  obtain ⟨p, q, rfl⟩ : ∃ (p : Fin 400) (q : Fin 32), j = ix2 p q := ⟨j 0, j 1, eq_ix2 j⟩
  have hemb : ((cfg2.win 3).blk t).view.emb (ix2 p q) = (ix2 (rowOf t p) q : S10000x32.Idx) := by
    funext a; apply Fin.ext
    match a with
    | ⟨0, _⟩ => show win2_3.index t (0 : Fin 2) * 400 + 1 * p.val = t.val * 400 + p.val; rw [e0]; omega
    | ⟨1, _⟩ => show win2_3.index t (1 : Fin 2) * 32 + 1 * q.val = q.val; rw [e1]; omega
  show k2_pay2 (F := Ideal) (iblk2 V c 0 t) (iblk2 V c 1 t) (ix2 p q) = G3 V c (((cfg2.win 3).blk t).view.emb (ix2 p q))
  rw [hemb]
  exact blk_prodL V c t p q

/-- An index of the array is in point `t`'s block iff each coordinate is in the block's range on its axis. -/
theorem mem_blk3 (t : Fin cfg2.N) (i : S10000x32.Idx) :
    i ∈ ((cfg2.win 3).blk t).view.set ↔ ∀ a : Fin 2, win2_3.index t a * S400x32.size a ≤ (i a).val ∧ (i a).val < win2_3.index t a * S400x32.size a + S400x32.size a := by
  show i ∈ ((View.whole main_v5_0).slice (win2_3.rect t)).set ↔ _
  rw [View.set_slice_whole, Rect.mem_set_unit]
  exact Iff.rfl

/-- Row `r` lies in the block of point `r / 400`: the 25 blocks of 400 rows fill the 10000 rows. -/
theorem cover3 (i : S10000x32.Idx) :
    ∃ t : Fin cfg2.N, (cfg2.win 3).flush t = true ∧ i ∈ ((cfg2.win 3).blk t).view.set := by
  have hi0 : (i 0).val < 10000 := (i 0).isLt
  have hi1 : (i 1).val < 32 := (i 1).isLt
  have hN : cfg2.N = 25 := N_2
  obtain ⟨t, ht⟩ : ∃ t : Fin cfg2.N, t.val = (i 0).val / 400 := ⟨⟨(i 0).val / 400, by rw [hN]; omega⟩, rfl⟩
  obtain ⟨-, -, -, -, -, -, e0, e1, -⟩ := idx_facts t
  refine ⟨t, flush2_3 t, ?_⟩
  rw [mem_blk3]
  intro a
  match a with
  | ⟨0, _⟩ => show win2_3.index t (0 : Fin 2) * 400 ≤ (i 0).val ∧ (i 0).val < win2_3.index t (0 : Fin 2) * 400 + 400; rw [e0, ht]; omega
  | ⟨1, _⟩ => show win2_3.index t (1 : Fin 2) * 32 ≤ (i 1).val ∧ (i 1).val < win2_3.index t (1 : Fin 2) * 32 + 32; rw [e1]; omega

/-! ## Output window 4: columns 32..63 of `adj y2` -/

/-- Columns 32..63 of `adj y2`, as an array. -/
abbrev G4 (c : Dev nD) : M 10000 32 :=
  arr2 (fun i (q : Fin 32) => mm (cur (V c main_arg1)) (cur (V c main_v4)) i ⟨q.val + 32, by have := q.isLt; omega⟩)

/-- Point `t` writes back block `t` of that array. -/
theorem flushed4_eq (c : Dev nD) (t : Fin cfg2.N) :
    (dat2 V c).flushed 4 t = ((cfg2.win 4).blk t).view.read (Elt Ideal) (G4 V c) := by
  show (cfg2.win 4).cut (grid2.coords t) ((dat2 V c).after 4 t) = _
  rw [after2_4]
  unfold out2_4
  rw [View.canon_unit_zero hz]
  simp only [View.ld_unit_zero (S := S400x10000) hz, View.ld_unit_zero (S := S10000x64) hz]
  obtain ⟨-, -, -, -, -, -, -, -, e0, e1, -⟩ := idx_facts t
  funext j
  obtain ⟨p, q, rfl⟩ : ∃ (p : Fin 400) (q : Fin 32), j = ix2 p q := ⟨j 0, j 1, eq_ix2 j⟩
  have hemb : ((cfg2.win 4).blk t).view.emb (ix2 p q) = (ix2 (rowOf t p) q : S10000x32.Idx) := by
    funext a; apply Fin.ext
    match a with
    | ⟨0, _⟩ => show win2_4.index t (0 : Fin 2) * 400 + 1 * p.val = t.val * 400 + p.val; rw [e0]; omega
    | ⟨1, _⟩ => show win2_4.index t (1 : Fin 2) * 32 + 1 * q.val = q.val; rw [e1]; omega
  show k2_pay3 (F := Ideal) (iblk2 V c 0 t) (iblk2 V c 1 t) (ix2 p q) = G4 V c (((cfg2.win 4).blk t).view.emb (ix2 p q))
  rw [hemb]
  exact blk_prodR V c t p q

/-- An index of the array is in point `t`'s block iff each coordinate is in the block's range on its axis. -/
theorem mem_blk4 (t : Fin cfg2.N) (i : S10000x32.Idx) :
    i ∈ ((cfg2.win 4).blk t).view.set ↔ ∀ a : Fin 2, win2_4.index t a * S400x32.size a ≤ (i a).val ∧ (i a).val < win2_4.index t a * S400x32.size a + S400x32.size a := by
  show i ∈ ((View.whole main_v5_1).slice (win2_4.rect t)).set ↔ _
  rw [View.set_slice_whole, Rect.mem_set_unit]
  exact Iff.rfl

/-- Row `r` lies in the block of point `r / 400`. -/
theorem cover4 (i : S10000x32.Idx) :
    ∃ t : Fin cfg2.N, (cfg2.win 4).flush t = true ∧ i ∈ ((cfg2.win 4).blk t).view.set := by
  have hi0 : (i 0).val < 10000 := (i 0).isLt
  have hi1 : (i 1).val < 32 := (i 1).isLt
  have hN : cfg2.N = 25 := N_2
  obtain ⟨t, ht⟩ : ∃ t : Fin cfg2.N, t.val = (i 0).val / 400 := ⟨⟨(i 0).val / 400, by rw [hN]; omega⟩, rfl⟩
  obtain ⟨-, -, -, -, -, -, -, -, e0, e1, -⟩ := idx_facts t
  refine ⟨t, flush2_4 t, ?_⟩
  rw [mem_blk4]
  intro a
  match a with
  | ⟨0, _⟩ => show win2_4.index t (0 : Fin 2) * 400 ≤ (i 0).val ∧ (i 0).val < win2_4.index t (0 : Fin 2) * 400 + 400; rw [e0, ht]; omega
  | ⟨1, _⟩ => show win2_4.index t (1 : Fin 2) * 32 ≤ (i 1).val ∧ (i 1).val < win2_4.index t (1 : Fin 2) * 32 + 32; rw [e1]; omega

/-! ## Output window 5: the leaky rectifier of (columns 0..31 of `adj y2`) times `few` -/

/-- The leaky rectifier of (columns 0..31 of `adj y2`) times `few`, as an array. -/
abbrev G5 (c : Dev nD) : M 10000 128 :=
  arr2 (leaky (mm (fun i (q : Fin 32) => mm (cur (V c main_arg1)) (cur (V c main_v4)) i ⟨q.val, by have := q.isLt; omega⟩) (cur (V c main_arg5))))

/-- Point `t` writes back block `t` of that array: row `p` of the block's product with `few` sums, over the 32
    middle columns, row `400 t + p` of `adj y2` against the whole of `few`. -/
theorem flushed5_eq (c : Dev nD) (t : Fin cfg2.N) :
    (dat2 V c).flushed 5 t = ((cfg2.win 5).blk t).view.read (Elt Ideal) (G5 V c) := by
  show (cfg2.win 5).cut (grid2.coords t) ((dat2 V c).after 5 t) = _
  rw [after2_5]
  unfold out2_5
  rw [View.canon_unit_zero hz]
  simp only [View.ld_unit_zero (S := S400x10000) hz, View.ld_unit_zero (S := S10000x64) hz, View.ld_unit_zero (S := S32x128) hz]
  obtain ⟨-, -, -, -, -, -, -, -, -, -, e0, e1⟩ := idx_facts t
  funext j
  obtain ⟨p, q, rfl⟩ : ∃ (p : Fin 400) (q : Fin 128), j = ix2 p q := ⟨j 0, j 1, eq_ix2 j⟩
  have hemb : ((cfg2.win 5).blk t).view.emb (ix2 p q) = (ix2 (rowOf t p) q : S10000x128.Idx) := by
    funext a; apply Fin.ext
    match a with
    | ⟨0, _⟩ => show win2_5.index t (0 : Fin 2) * 400 + 1 * p.val = t.val * 400 + p.val; rw [e0]; omega
    | ⟨1, _⟩ => show win2_5.index t (1 : Fin 2) * 128 + 1 * q.val = q.val; rw [e1]; omega
  show k2_pay4 (F := Ideal) (iblk2 V c 0 t) (iblk2 V c 1 t) (iblk2 V c 2 t) (ix2 p q) = G5 V c (((cfg2.win 5).blk t).view.emb (ix2 p q))
  rw [hemb]
  refine (pay4_apply (iblk2 V c 0 t) (iblk2 V c 1 t) (iblk2 V c 2 t) p q).trans ?_
  have hm : mm (fun i (r : Fin 32) => k2_pay2 (F := Ideal) (iblk2 V c 0 t) (iblk2 V c 1 t) (ix2 i r)) (cur (iblk2 V c 2 t : M 32 128)) p q
      = mm (fun i (r : Fin 32) => mm (cur (V c main_arg1)) (cur (V c main_v4)) i (colL r)) (cur (V c main_arg5)) (rowOf t p) q :=
    Finset.sum_congr rfl fun k _ => congrArg₂ (· * ·) (blk_prodL V c t p k) (few_blk V c t k q)
  show leaky _ p q = leaky _ (rowOf t p) q
  unfold leaky
  exact congrArg (fun z : EReal => Scalar.select (FloatOps.cmpf (F := Ideal) (φ := .f32) .oge z zero) z (cslope * z)) hm

/-- An index of the array is in point `t`'s block iff each coordinate is in the block's range on its axis. -/
theorem mem_blk5 (t : Fin cfg2.N) (i : S10000x128.Idx) :
    i ∈ ((cfg2.win 5).blk t).view.set ↔ ∀ a : Fin 2, win2_5.index t a * S400x128.size a ≤ (i a).val ∧ (i a).val < win2_5.index t a * S400x128.size a + S400x128.size a := by
  show i ∈ ((View.whole main_v5_2).slice (win2_5.rect t)).set ↔ _
  rw [View.set_slice_whole, Rect.mem_set_unit]
  exact Iff.rfl

/-- Row `r` lies in the block of point `r / 400`. -/
theorem cover5 (i : S10000x128.Idx) :
    ∃ t : Fin cfg2.N, (cfg2.win 5).flush t = true ∧ i ∈ ((cfg2.win 5).blk t).view.set := by
  have hi0 : (i 0).val < 10000 := (i 0).isLt
  have hi1 : (i 1).val < 128 := (i 1).isLt
  have hN : cfg2.N = 25 := N_2
  obtain ⟨t, ht⟩ : ∃ t : Fin cfg2.N, t.val = (i 0).val / 400 := ⟨⟨(i 0).val / 400, by rw [hN]; omega⟩, rfl⟩
  obtain ⟨-, -, -, -, -, -, -, -, -, -, e0, e1⟩ := idx_facts t
  refine ⟨t, flush2_5 t, ?_⟩
  rw [mem_blk5]
  intro a
  match a with
  | ⟨0, _⟩ => show win2_5.index t (0 : Fin 2) * 400 ≤ (i 0).val ∧ (i 0).val < win2_5.index t (0 : Fin 2) * 400 + 400; rw [e0, ht]; omega
  | ⟨1, _⟩ => show win2_5.index t (1 : Fin 2) * 128 ≤ (i 1).val ∧ (i 1).val < win2_5.index t (1 : Fin 2) * 128 + 128; rw [e1]; omega

end Reg2

open Reg2

/-! ## The three output arrays after the region -/

/-- Region 2: columns 0..31 of `adj y2`. -/
theorem final2_3 (c : Dev nD) : (dat2 V c).arrAt 3 cfg2.N =
    arr2 (fun i (q : Fin 32) => mm (cur (V c main_arg1)) (cur (V c main_v4)) i ⟨q.val, by have := q.isLt; omega⟩) :=
  (dat2 V c).arrAt_eq_of_cover 3 (G3 V c) (fun t _ => flushed3_eq V c t) cover3

/-- Region 2: columns 32..63 of `adj y2`. -/
theorem final2_4 (c : Dev nD) : (dat2 V c).arrAt 4 cfg2.N =
    arr2 (fun i (q : Fin 32) => mm (cur (V c main_arg1)) (cur (V c main_v4)) i ⟨q.val + 32, by have := q.isLt; omega⟩) :=
  (dat2 V c).arrAt_eq_of_cover 4 (G4 V c) (fun t _ => flushed4_eq V c t) cover4

/-- Region 2: the leaky rectifier of (columns 0..31 of `adj y2`) times `few`. -/
theorem final2_5 (c : Dev nD) : (dat2 V c).arrAt 5 cfg2.N =
    arr2 (leaky (mm (fun i (q : Fin 32) => mm (cur (V c main_arg1)) (cur (V c main_v4)) i ⟨q.val, by have := q.isLt; omega⟩) (cur (V c main_arg5)))) :=
  (dat2 V c).arrAt_eq_of_cover 5 (G5 V c) (fun t _ => flushed5_eq V c t) cover5

end Cert.KernelIdeal.Val

end
-- ==== Proof.Reg3.lean ====
import proofs.«165724_g68255620268442_cont_9to1_m_670_4_alg».proof.Proof.Gen.KernelIdeal.Frame
import proofs.«165724_g68255620268442_cont_9to1_m_670_4_alg».proof.Proof.Spec
import proofs.«165724_g68255620268442_cont_9to1_m_670_4_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))
/-- The zero offset of a whole-buffer access. -/
theorem hz3 : (![0, 0] : Fin 2 → Nat) = fun _ => 0 := funext fun a => by fin_cases a <;> rfl

/-- The transposing payload at an index: the operand at the index with the two coordinates exchanged. -/
theorem pay3_apply (x0 : Vec Ideal S10000x32 .f32) (i : S32x10000.Idx) (k : S10000x32.Idx)
    (h0 : (k 1).val = (i 0).val) (h1 : (k 0).val = (i 1).val) : k3_pay1 (F := Ideal) x0 i = x0 k := by
  unfold k3_pay1
  dsimp only
  rw [shapeCast_self]
  exact transpose_apply [1, 0] x0 _ i k (fun b => by
    match b with
    | ⟨0, _⟩ => exact h0
    | ⟨1, _⟩ => exact h1)

/-- The one point's block indices are zero on both axes of both windows. -/
theorem idx_facts3 : ∀ t : Fin cfg3.N, win3_0.index t (0 : Fin 2) = 0 ∧ win3_0.index t (1 : Fin 2) = 0
    ∧ win3_1.index t (0 : Fin 2) = 0 ∧ win3_1.index t (1 : Fin 2) = 0 :=
  (by decide +kernel : ∀ t : Fin grid3.N, _)

/-- What the point writes back is the block of the transposed array. -/
theorem flushed3_eq (c : Dev nD) (t : Fin cfg3.N) :
    (dat3 V c).flushed 1 t = ((cfg3.win 1).blk t).view.read (Elt Ideal)
      (arr2 (fun (k : Fin 32) (j : Fin 10000) => V c main_v5_0 (ix2 j k))) := by
  show (cfg3.win 1).cut (grid3.coords t) ((dat3 V c).after 1 t) = _
  rw [after3_1]
  unfold out3_1
  rw [View.canon_unit_zero hz3]
  simp only [View.ld_unit_zero (S := S10000x32) hz3]
  obtain ⟨e0, e1, e2, e3⟩ := idx_facts3 t
  funext y
  have hy0 : (y 0).val < 32 := (y 0).isLt
  have hy1 : (y 1).val < 10000 := (y 1).isLt
  refine (pay3_apply (iblk3 V c 0 t) ((cfg3.win 1).xinj (grid3.coords t) y)
    (ix2 ⟨(y 1).val, hy1⟩ ⟨(y 0).val, hy0⟩) rfl rfl).trans ?_
  show V c main_v5_0 (((cfg3.win 0).blk t).view.emb (ix2 ⟨(y 1).val, hy1⟩ ⟨(y 0).val, hy0⟩))
    = V c main_v5_0 (ix2 ((((cfg3.win 1).blk t).view.emb y) 1) ((((cfg3.win 1).blk t).view.emb y) 0))
  refine congrArg (V c main_v5_0) (funext fun a => Fin.ext ?_)
  match a with
  | ⟨0, _⟩ =>
    show win3_0.index t (0 : Fin 2) * 10000 + 1 * (y 1).val = win3_1.index t (1 : Fin 2) * 10000 + 1 * (y 1).val
    omega
  | ⟨1, _⟩ =>
    show win3_0.index t (1 : Fin 2) * 32 + 1 * (y 0).val = win3_1.index t (0 : Fin 2) * 32 + 1 * (y 0).val
    omega

/-- An index of the array is in the point's block iff each coordinate is in the block's range on its axis. -/
theorem mem_blk3 (t : Fin cfg3.N) (i : S32x10000.Idx) :
    i ∈ ((cfg3.win 1).blk t).view.set ↔ ∀ a : Fin 2, win3_1.index t a * S32x10000.size a ≤ (i a).val
      ∧ (i a).val < win3_1.index t a * S32x10000.size a + S32x10000.size a := by
  show i ∈ ((View.whole main_v6).slice (win3_1.rect t)).set ↔ _
  rw [View.set_slice_whole, Rect.mem_set_unit]
  exact Iff.rfl

/-- The one point's block is the whole array. -/
theorem cover3 (i : S32x10000.Idx) :
    ∃ t : Fin cfg3.N, (cfg3.win 1).flush t = true ∧ i ∈ ((cfg3.win 1).blk t).view.set := by
  refine ⟨t3_0, flush3_1 t3_0, ?_⟩
  rw [mem_blk3]
  obtain ⟨e0, e1, e2, e3⟩ := idx_facts3 t3_0
  have h0 : (i 0).val < 32 := (i 0).isLt
  have h1 : (i 1).val < 10000 := (i 1).isLt
  intro a
  match a with
  | ⟨0, _⟩ =>
    show win3_1.index t3_0 (0 : Fin 2) * 32 ≤ (i 0).val ∧ (i 0).val < win3_1.index t3_0 (0 : Fin 2) * 32 + 32
    omega
  | ⟨1, _⟩ =>
    show win3_1.index t3_0 (1 : Fin 2) * 10000 ≤ (i 1).val ∧ (i 1).val < win3_1.index t3_0 (1 : Fin 2) * 10000 + 10000
    omega

/-- Region 3 leaves the transpose of its input array. -/
theorem final3 (c : Dev nD) : (dat3 V c).arrAt 1 cfg3.N =
    arr2 (fun (k : Fin 32) (j : Fin 10000) => V c main_v5_0 (ix2 j k)) :=
  (dat3 V c).arrAt_eq_of_cover 1 _ (fun t _ => flushed3_eq V c t) cover3

end Cert.KernelIdeal.Val

end
-- ==== Proof.Reg4.lean ====
import proofs.«165724_g68255620268442_cont_9to1_m_670_4_alg».proof.Proof.Gen.KernelIdeal.Frame
import proofs.«165724_g68255620268442_cont_9to1_m_670_4_alg».proof.Proof.Spec
import proofs.«165724_g68255620268442_cont_9to1_m_670_4_alg».proof.Proof.LibDot2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))
/-- The zero offset of a whole-buffer access. -/
theorem hz4 : (![0, 0] : Fin 2 → Nat) = fun _ => 0 := funext fun a => by fin_cases a <;> rfl

/-- The product payload at an index: row `p` of the left block against column `q` of the right array. -/
theorem pay4_apply (x0 : Vec Ideal S400x32 .f32) (x1 : Vec Ideal S32x10000 .f32) (p : Fin 400) (q : Fin 10000) :
    k4_pay1 (F := Ideal) x0 x1 (ix2 p q) = ∑ k : Fin 32, x0 (ix2 p k) * x1 (ix2 k q) := by
  unfold k4_pay1
  rw [shapeCast_self, shapeCast_self]
  exact Dot2.matmul_zero_mm_apply (M := 400) (K := 32) (N := 10000)
    dot_S400x32_S32x10000_S400x10000_1_0_0_1_n_n_wf none x0 x1 p q

/-- The same at an index given by its two coordinates. -/
theorem pay4_apply_of_eq (x0 : Vec Ideal S400x32 .f32) (x1 : Vec Ideal S32x10000 .f32) (j : S400x10000.Idx)
    (p : Fin 400) (q : Fin 10000) (hj : j = ix2 p q) :
    k4_pay1 (F := Ideal) x0 x1 j = ∑ k : Fin 32, x0 (ix2 p k) * x1 (ix2 k q) := by
  subst hj; exact pay4_apply x0 x1 p q

/-- The index maps over the grid: the left operand's and the output's row blocks are the point's, the right
    operand's block is the whole array. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left operand's block at point `t`, at `(p, k)`: row `400 t + p` of its array. -/
theorem iblk4_0_apply (c : Dev nD) (t : Fin cfg4.N) (p : Fin 400) (k : Fin 32) (r : Fin 10000)
    (hr : r.val = t.val * 400 + p.val) :
    (iblk4 V c 0 t : Vec Ideal S400x32 .f32) (ix2 p k) = cur (V c main_v5_0) r k := by
  obtain ⟨e0, e1, -, -, -, -⟩ := idx_facts4 t
  show V c main_v5_0 (((cfg4.win 0).blk t).view.emb (ix2 p k)) = V c main_v5_0 (ix2 r k)
  refine congrArg (V c main_v5_0) (funext fun a => Fin.ext ?_)
  match a with
  | ⟨0, _⟩ =>
    show win4_0.index t (0 : Fin 2) * 400 + 1 * p.val = r.val
    omega
  | ⟨1, _⟩ =>
    show win4_0.index t (1 : Fin 2) * 32 + 1 * k.val = k.val
    omega

/-- The right operand's block at any point is its whole array. -/
theorem iblk4_1_apply (c : Dev nD) (t : Fin cfg4.N) (k : Fin 32) (q : Fin 10000) :
    (iblk4 V c 1 t : Vec Ideal S32x10000 .f32) (ix2 k q) = cur (V c main_v6) k q := by
  obtain ⟨-, -, e2, e3, -, -⟩ := idx_facts4 t
  show V c main_v6 (((cfg4.win 1).blk t).view.emb (ix2 k q)) = V c main_v6 (ix2 k q)
  refine congrArg (V c main_v6) (funext fun a => Fin.ext ?_)
  match a with
  | ⟨0, _⟩ =>
    show win4_1.index t (0 : Fin 2) * 32 + 1 * k.val = k.val
    omega
  | ⟨1, _⟩ =>
    show win4_1.index t (1 : Fin 2) * 10000 + 1 * q.val = q.val
    omega

/-- What point `t` writes back is block `t` of the product of the two input arrays. -/
theorem flushed4_eq (c : Dev nD) (t : Fin cfg4.N) :
    (dat4 V c).flushed 2 t = ((cfg4.win 2).blk t).view.read (Elt Ideal)
      (arr2 (mm (cur (V c main_v5_0)) (cur (V c main_v6)))) := by
  show (cfg4.win 2).cut (grid4.coords t) ((dat4 V c).after 2 t) = _
  rw [after4_2]
  unfold out4_2
  rw [View.canon_unit_zero hz4]
  simp only [View.ld_unit_zero (S := S400x32) hz4, View.ld_unit_zero (S := S32x10000) hz4]
  obtain ⟨-, -, -, -, e4, e5⟩ := idx_facts4 t
  have ht : t.val < grid4.N := t.isLt
  rw [N_4] at ht
  funext y
  have hy0 : (y 0).val < 400 := (y 0).isLt
  have hy1 : (y 1).val < 10000 := (y 1).isLt
  have hj : (cfg4.win 2).xinj (grid4.coords t) y = ix2 (⟨(y 0).val, hy0⟩ : Fin 400) (⟨(y 1).val, hy1⟩ : Fin 10000) := by
    funext a
    match a with
    | ⟨0, _⟩ => rfl
    | ⟨1, _⟩ => rfl
  have hE : ((cfg4.win 2).blk t).view.emb y
      = ix2 (⟨t.val * 400 + (y 0).val, by omega⟩ : Fin 10000) (⟨(y 1).val, hy1⟩ : Fin 10000) := by
    funext a; apply Fin.ext
    match a with
    | ⟨0, _⟩ =>
      show win4_2.index t (0 : Fin 2) * 400 + 1 * (y 0).val = t.val * 400 + (y 0).val
      omega
    | ⟨1, _⟩ =>
      show win4_2.index t (1 : Fin 2) * 10000 + 1 * (y 1).val = (y 1).val
      omega
  refine (pay4_apply_of_eq (iblk4 V c 0 t) (iblk4 V c 1 t) ((cfg4.win 2).xinj (grid4.coords t) y)
    ⟨(y 0).val, hy0⟩ ⟨(y 1).val, hy1⟩ hj).trans ?_
  refine Eq.trans ?_ (congrArg (arr2 (mm (cur (V c main_v5_0)) (cur (V c main_v6)))) hE).symm
  show _ = ∑ k : Fin 32, cur (V c main_v5_0) (⟨t.val * 400 + (y 0).val, by omega⟩ : Fin 10000) k
      * cur (V c main_v6) k (⟨(y 1).val, hy1⟩ : Fin 10000)
  refine Finset.sum_congr rfl fun k _ => ?_
  rw [iblk4_0_apply V c t ⟨(y 0).val, hy0⟩ k ⟨t.val * 400 + (y 0).val, by omega⟩ rfl,
    iblk4_1_apply V c t k ⟨(y 1).val, hy1⟩]

/-- An index of the array is in point `t`'s block iff each coordinate is in the block's range on its axis. -/
theorem mem_blk4 (t : Fin cfg4.N) (i : S10000x10000.Idx) :
    i ∈ ((cfg4.win 2).blk t).view.set ↔ ∀ a : Fin 2, win4_2.index t a * S400x10000.size a ≤ (i a).val
      ∧ (i a).val < win4_2.index t a * S400x10000.size a + S400x10000.size a := by
  show i ∈ ((View.whole main_v7).slice (win4_2.rect t)).set ↔ _
  rw [View.set_slice_whole, Rect.mem_set_unit]
  exact Iff.rfl

/-- The 25 row blocks cover the array: row `r` is in the block of point `r / 400`. -/
theorem cover4 (i : S10000x10000.Idx) :
    ∃ t : Fin cfg4.N, (cfg4.win 2).flush t = true ∧ i ∈ ((cfg4.win 2).blk t).view.set := by
  have h0 : (i 0).val < 10000 := (i 0).isLt
  have h1 : (i 1).val < 10000 := (i 1).isLt
  have hN : grid4.N = 25 := N_4
  obtain ⟨t, ht⟩ : ∃ t : Fin cfg4.N, t.val = (i 0).val / 400 :=
    ⟨⟨(i 0).val / 400, by show (i 0).val / 400 < grid4.N; rw [hN]; omega⟩, rfl⟩
  refine ⟨t, flush4_2 t, ?_⟩
  rw [mem_blk4]
  obtain ⟨-, -, -, -, e4, e5⟩ := idx_facts4 t
  intro a
  match a with
  | ⟨0, _⟩ =>
    show win4_2.index t (0 : Fin 2) * 400 ≤ (i 0).val ∧ (i 0).val < win4_2.index t (0 : Fin 2) * 400 + 400
    omega
  | ⟨1, _⟩ =>
    show win4_2.index t (1 : Fin 2) * 10000 ≤ (i 1).val ∧ (i 1).val < win4_2.index t (1 : Fin 2) * 10000 + 10000
    omega

/-- Region 4 leaves the product of its two input arrays. -/
theorem final4 (c : Dev nD) : (dat4 V c).arrAt 2 cfg4.N =
    arr2 (mm (cur (V c main_v5_0)) (cur (V c main_v6))) :=
  (dat4 V c).arrAt_eq_of_cover 2 _ (fun t _ => flushed4_eq V c t) cover4

end Cert.KernelIdeal.Val

end
-- ==== Proof.KChain.lean ====
/-
  The kernel program's results as functions of its arguments.

  The program is a short stretch of host operations (the two 64 x 32 weight matrices side by side,
  the scale and the shift each as a 1 x 128 array) followed by five regions. Each region leaves in
  its output arrays one whole-array function of the arrays it reads (the five region modules), and
  every other buffer as it found it; so the contents at the last boundary are read backwards,
  boundary by boundary, down to the launch memory:
    the product array    = MU MUᵀ                          (region 4 over region 3's transpose),
    the feature array    = leaky (MU few)                   (region 2),
    MU, LV               = the left and right 32 columns of adj (H [W2|W3])   (region 2 over region 1),
    H                    = max (adj Y1) 0, Y1 = xh W1       (region 1 over region 0).
-/
import proofs.«165724_g68255620268442_cont_9to1_m_670_4_alg».proof.Proof.KRun
import proofs.«165724_g68255620268442_cont_9to1_m_670_4_alg».proof.Proof.Spec
import Idealize.ShloMosaic.Lib.Pipeline.Value
import proofs.«165724_g68255620268442_cont_9to1_m_670_4_alg».proof.Proof.Reg0
import proofs.«165724_g68255620268442_cont_9to1_m_670_4_alg».proof.Proof.Reg1
import proofs.«165724_g68255620268442_cont_9to1_m_670_4_alg».proof.Proof.Reg2
import proofs.«165724_g68255620268442_cont_9to1_m_670_4_alg».proof.Proof.Reg3
import proofs.«165724_g68255620268442_cont_9to1_m_670_4_alg».proof.Proof.Reg4
import Idealize.ShloMosaic.Lib.StableHlo.Run
import Idealize.ShloMosaic.Lib.ValueLayout

set_option maxRecDepth 16384

noncomputable section

namespace Cert.KernelIdeal.Val

open Cert.KernelIdeal Cert.KernelIdeal.Gen Cert.Spec
open Idealize.ShloMosaic Idealize.ShloMosaic.TcCoe Idealize.ShloMosaic.ValueIdx Idealize.SL.Sem
open Idealize.ShloMosaic.StableHlo
open Idealize.ShloMosaic.Pipeline (Dat Cfg Window)

variable (m : (ℓ : Loc nD τ sig) → Buf (Elt Ideal) ℓ) (ρ : Dev nD → PrngReg)

theorem cur_arr2 {a b : Nat} (f : Fin a → Fin b → EReal) : cur (arr2 f) = f := rfl

/-! ## The host stretch: the contents when region 0 is entered -/

theorem W1_arg0 (c : Dev nD) : W1 m ρ c (Proc.devRef .tc main_arg0) = m ((c : Thread nD τ).loc main_arg0) := by
  dsimp only [W1, hostOps0]; after_results
theorem W1_arg1 (c : Dev nD) : W1 m ρ c (Proc.devRef .tc main_arg1) = m ((c : Thread nD τ).loc main_arg1) := by
  dsimp only [W1, hostOps0]; after_results
theorem W1_arg2 (c : Dev nD) : W1 m ρ c (Proc.devRef .tc main_arg2) = m ((c : Thread nD τ).loc main_arg2) := by
  dsimp only [W1, hostOps0]; after_results
theorem W1_arg5 (c : Dev nD) : W1 m ρ c (Proc.devRef .tc main_arg5) = m ((c : Thread nD τ).loc main_arg5) := by
  dsimp only [W1, hostOps0]; after_results

/-- The 64 x 64 weight array is the two 64 x 32 arguments side by side. -/
theorem W1_v0 (c : Dev nD) : W1 m ρ c (Proc.devRef .tc main_v0)
    = concatenate S64x64 1 [⟨S64x32, m ((c : Thread nD τ).loc main_arg3)⟩, ⟨S64x32, m ((c : Thread nD τ).loc main_arg4)⟩] concatenates_S64x32_S64x32_S64x64_d1 := by
  dsimp only [W1, hostOps0]; after_results

/-- The scale as a 1 x 128 array. -/
theorem W1_v1 (c : Dev nD) : W1 m ρ c (Proc.devRef .tc main_v1)
    = shapeCast S1x128 (m ((c : Thread nD τ).loc main_arg6)) shapeCasts_S128_S1x128 := by
  dsimp only [W1, hostOps0]; after_results; rfl

/-- The shift as a 1 x 128 array. -/
theorem W1_v2 (c : Dev nD) : W1 m ρ c (Proc.devRef .tc main_v2)
    = shapeCast S1x128 (m ((c : Thread nD τ).loc main_arg7)) shapeCasts_S128_S1x128 := by
  dsimp only [W1, hostOps0]; after_results; rfl

/-- Side by side, entry by entry. -/
theorem w23_eq (c : Dev nD) : cur (W1 m ρ c (Proc.devRef .tc main_v0)) = w23 (m ((c : Thread nD τ).loc main_arg3)) (m ((c : Thread nD τ).loc main_arg4)) := by
  funext l q
  rw [W1_v0]
  unfold cur w23
  by_cases h : q.val < 32
  · rw [dif_pos h]
    exact concatenate_pair_apply_left (s₁ := S64x32) (s₂ := S64x32) (t := S64x64) (1 : Fin 2) _ _ _ (ix2 l q) rfl (ix2 l ⟨q.val, h⟩) (fun b => by
      match b with
      | ⟨0, _⟩ => rfl
      | ⟨1, _⟩ => rfl)
  · rw [dif_neg h]
    exact concatenate_pair_apply_right (s₁ := S64x32) (s₂ := S64x32) (t := S64x64) (1 : Fin 2) _ _ _ (ix2 l q) rfl rfl (ix2 l ⟨q.val - 32, by have := q.isLt; omega⟩) (fun b hb => by
      match b, hb with
      | ⟨0, _⟩, _ => rfl
      | ⟨1, _⟩, hb => exact absurd rfl hb) (by show q.val - 32 + 32 = q.val; omega)

/-! ## The arguments, and the stages as functions of them -/

abbrev aX (c : Dev nD) : M 10000 128 := m ((c : Thread nD τ).loc main_arg0)
abbrev aAdj (c : Dev nD) : M 10000 10000 := m ((c : Thread nD τ).loc main_arg1)
abbrev aW1 (c : Dev nD) : M 128 64 := m ((c : Thread nD τ).loc main_arg2)
abbrev aW2 (c : Dev nD) : M 64 32 := m ((c : Thread nD τ).loc main_arg3)
abbrev aW3 (c : Dev nD) : M 64 32 := m ((c : Thread nD τ).loc main_arg4)
abbrev aFew (c : Dev nD) : M 32 128 := m ((c : Thread nD τ).loc main_arg5)
abbrev aG (c : Dev nD) : Fin 128 → EReal := fun j => m ((c : Thread nD τ).loc main_arg6) (ix1 j)
abbrev aB (c : Dev nD) : Fin 128 → EReal := fun j => m ((c : Thread nD τ).loc main_arg7) (ix1 j)

/-- The normalised features times `W1`. -/
def kY1 (c : Dev nD) : Fin 10000 → Fin 64 → EReal := Y1 (xhK (aX m c) (aG m c) (aB m c)) (aW1 m c)
/-- The hidden layer. -/
def kH (c : Dev nD) : Fin 10000 → Fin 64 → EReal := H (aAdj m c) (kY1 m c)
/-- The latent mean and log-variance. -/
def kMU (c : Dev nD) : Fin 10000 → Fin 32 → EReal := MU (aAdj m c) (kH m c) (aW2 m c)
def kLV (c : Dev nD) : Fin 10000 → Fin 32 → EReal := MU (aAdj m c) (kH m c) (aW3 m c)

/-! ## Region 0's exit -/

theorem W2_arg1 (c : Dev nD) : W2 m ρ c (Proc.devRef .tc main_arg1) = aAdj m c :=
  (W2_of_ne m ρ c main_arg1 (by decide)).trans (W1_arg1 m ρ c)
theorem W2_arg5 (c : Dev nD) : W2 m ρ c (Proc.devRef .tc main_arg5) = aFew m c :=
  (W2_of_ne m ρ c main_arg5 (by decide)).trans (W1_arg5 m ρ c)
theorem W2_v0 (c : Dev nD) : cur (W2 m ρ c (Proc.devRef .tc main_v0)) = w23 (aW2 m c) (aW3 m c) := by
  rw [W2_of_ne m ρ c main_v0 (by decide)]; exact w23_eq m ρ c

theorem W2_v3 (c : Dev nD) : W2 m ρ c (Proc.devRef .tc main_v3) = arr2 (kY1 m c) := by
  refine (W2_arr m ρ c 4).trans ((final0 (V1 m ρ) c).trans ?_)
  show arr2 (Y1 (xhK (W1 m ρ c (Proc.devRef .tc main_arg0)) (fun j => W1 m ρ c (Proc.devRef .tc main_v1) (ix2 0 j))
    (fun j => W1 m ρ c (Proc.devRef .tc main_v2) (ix2 0 j))) (W1 m ρ c (Proc.devRef .tc main_arg2))) = _
  rw [W1_arg0, W1_arg2, W1_v1, W1_v2]
  simp only [shapeCast_a_1a_apply]
  rfl

/-! ## Region 1's exit -/

theorem W3_arg1 (c : Dev nD) : W3 m ρ c (Proc.devRef .tc main_arg1) = aAdj m c :=
  (W3_arr m ρ c 0).trans ((((dat1 (V2 m ρ) c).arrAt_in 0 rfl _).trans (A_eq1 (V2 m ρ) c 0)).trans (W2_arg1 m ρ c))
theorem W3_arg5 (c : Dev nD) : W3 m ρ c (Proc.devRef .tc main_arg5) = aFew m c :=
  (W3_of_ne m ρ c main_arg5 (by decide)).trans (W2_arg5 m ρ c)

theorem W3_v4 (c : Dev nD) : W3 m ρ c (Proc.devRef .tc main_v4) = arr2 (mm (kH m c) (w23 (aW2 m c) (aW3 m c))) := by
  refine (W3_arr m ρ c 3).trans ((final1 (V2 m ρ) c).trans ?_)
  show arr2 (mm (relu (mm (cur (W2 m ρ c (Proc.devRef .tc main_arg1))) (cur (W2 m ρ c (Proc.devRef .tc main_v3)))))
    (cur (W2 m ρ c (Proc.devRef .tc main_v0)))) = _
  rw [W2_arg1, W2_v3, W2_v0, cur_arr2]
  rfl

/-! ## Region 2's exit -/

theorem W4_v5_0 (c : Dev nD) : W4 m ρ c (Proc.devRef .tc main_v5_0) = arr2 (kMU m c) := by
  refine (W4_arr m ρ c 3).trans ((final2_3 (V3 m ρ) c).trans ?_)
  show arr2 (fun i (q : Fin 32) => mm (cur (W3 m ρ c (Proc.devRef .tc main_arg1))) (cur (W3 m ρ c (Proc.devRef .tc main_v4))) i
    ⟨q.val, by have := q.isLt; omega⟩) = _
  rw [W3_arg1, W3_v4, cur_arr2]
  exact congrArg arr2 (funext fun i => funext fun q => MV_left (aAdj m c) (kH m c) (aW2 m c) (aW3 m c) i q)

theorem W4_v5_1 (c : Dev nD) : W4 m ρ c (Proc.devRef .tc main_v5_1) = arr2 (kLV m c) := by
  refine (W4_arr m ρ c 4).trans ((final2_4 (V3 m ρ) c).trans ?_)
  show arr2 (fun i (q : Fin 32) => mm (cur (W3 m ρ c (Proc.devRef .tc main_arg1))) (cur (W3 m ρ c (Proc.devRef .tc main_v4))) i
    ⟨q.val + 32, by have := q.isLt; omega⟩) = _
  rw [W3_arg1, W3_v4, cur_arr2]
  exact congrArg arr2 (funext fun i => funext fun q => MV_right (aAdj m c) (kH m c) (aW2 m c) (aW3 m c) i q)

theorem W4_v5_2 (c : Dev nD) : W4 m ρ c (Proc.devRef .tc main_v5_2) = arr2 (XP (kMU m c) (aFew m c)) := by
  refine (W4_arr m ρ c 5).trans ((final2_5 (V3 m ρ) c).trans ?_)
  show arr2 (leaky (mm (fun i (q : Fin 32) => mm (cur (W3 m ρ c (Proc.devRef .tc main_arg1))) (cur (W3 m ρ c (Proc.devRef .tc main_v4))) i
    ⟨q.val, by have := q.isLt; omega⟩) (cur (W3 m ρ c (Proc.devRef .tc main_arg5))))) = _
  rw [W3_arg1, W3_v4, W3_arg5, cur_arr2]
  have e : (fun i (q : Fin 32) => mm (cur (aAdj m c)) (mm (kH m c) (w23 (aW2 m c) (aW3 m c))) i ⟨q.val, by have := q.isLt; omega⟩) = kMU m c :=
    funext fun i => funext fun q => MV_left (aAdj m c) (kH m c) (aW2 m c) (aW3 m c) i q
  rw [e]
  rfl

/-! ## Region 3's exit -/

theorem W5_v5_0 (c : Dev nD) : W5 m ρ c (Proc.devRef .tc main_v5_0) = arr2 (kMU m c) :=
  (W5_arr m ρ c 0).trans ((((dat3 (V4 m ρ) c).arrAt_in 0 rfl _).trans (A_eq3 (V4 m ρ) c 0)).trans (W4_v5_0 m ρ c))

theorem W5_v6 (c : Dev nD) : W5 m ρ c (Proc.devRef .tc main_v6) = arr2 (fun (k : Fin 32) (j : Fin 10000) => kMU m c j k) := by
  refine (W5_arr m ρ c 1).trans ((final3 (V4 m ρ) c).trans ?_)
  show arr2 (fun (k : Fin 32) (j : Fin 10000) => W4 m ρ c (Proc.devRef .tc main_v5_0) (ix2 j k)) = _
  rw [W4_v5_0]
  rfl

/-! ## Region 4's exit: the results -/

theorem W6_v5_0 (c : Dev nD) : W6 m ρ c (Proc.devRef .tc main_v5_0) = arr2 (kMU m c) :=
  (W6_arr m ρ c 0).trans ((((dat4 (V5 m ρ) c).arrAt_in 0 rfl _).trans (A_eq4 (V5 m ρ) c 0)).trans (W5_v5_0 m ρ c))

theorem W6_v5_1 (c : Dev nD) : W6 m ρ c (Proc.devRef .tc main_v5_1) = arr2 (kLV m c) :=
  (W6_of_ne m ρ c main_v5_1 (by decide)).trans ((W5_of_ne m ρ c main_v5_1 (by decide)).trans (W4_v5_1 m ρ c))

theorem W6_v5_2 (c : Dev nD) : W6 m ρ c (Proc.devRef .tc main_v5_2) = arr2 (XP (kMU m c) (aFew m c)) :=
  (W6_of_ne m ρ c main_v5_2 (by decide)).trans ((W5_of_ne m ρ c main_v5_2 (by decide)).trans (W4_v5_2 m ρ c))

theorem W6_v7 (c : Dev nD) : W6 m ρ c (Proc.devRef .tc main_v7) = arr2 (AP (kMU m c)) := by
  refine (W6_arr m ρ c 2).trans ((final4 (V5 m ρ) c).trans ?_)
  show arr2 (mm (cur (W5 m ρ c (Proc.devRef .tc main_v5_0))) (cur (W5 m ρ c (Proc.devRef .tc main_v6)))) = _
  rw [W5_v5_0, W5_v6, cur_arr2, cur_arr2]
  rfl

end Cert.KernelIdeal.Val

end
-- ==== Proof.RefDefs.lean ====
/-
  The reference program's stages as pure array terms: each is exactly the composition of host
  operations the program applies, from the argument arrays to one of its results.
    rMean   the column sums over the row count
    rVar    the variance routine: the squared deviations from the column mean summed, over
            (row count minus zero degrees of freedom), guarded by "that divisor is positive"
    rXh     (x - mean) / sqrt (var + eps) * g + b, every vector broadcast along the rows
    rY1, rH, rMU, rAP, rXP   the matrix products, the rectifier, and the leaky rectifier
-/
import proofs.«165724_g68255620268442_cont_9to1_m_670_4_alg».proof.Proof.Gen.ReferenceIdeal

noncomputable section

namespace Cert.ReferenceIdeal.RefVal

open Cert.ReferenceIdeal Cert.ReferenceIdeal.Gen Idealize.ShloMosaic

variable {F : FTy → Type} [FloatOps F]

/-- The contents of an f32 buffer of shape `S`. -/
abbrev T (F : FTy → Type) (S : Shape) := (⟨S, .f32⟩ : BufTy).Contents (Elt F)

/-- A length-128 vector along the columns of a 10000 x 128 array. -/
def bcRows (v : T F S128) : T F S10000x128 :=
  broadcastInDim S10000x128 ![0, 1] bcast_S1x128_S10000x128_0_1 (broadcastInDim S1x128 ![1] bcast_S128_S1x128_1 v)

def rSum (x : T F S10000x128) : T F S128 :=
  Host.reduceAdd x (constant S_ .f32 0x00000000#32) reducesTo_S10000x128_S128_d0 h_S_

def rMean (x : T F S10000x128) : T F S128 :=
  Host.divf (rSum x) (broadcastInDim S128 ![] bcast_S_S128 (constant S_ .f32 0x461C4000#32))

/-- The divisor of the variance routine: the row count minus the degrees of freedom (zero). -/
def rDof : T F S_ := subf (constant S_ .f32 0x461C4000#32) (sitofp .f32 (constantI S_ 32 0#32))

/-- The deviations inside the variance routine (its own mean, kept with a unit leading axis). -/
def rDevV (x : T F S10000x128) : T F S10000x128 :=
  subf x (broadcastInDim S10000x128 ![0, 1] bcast_S1x128_S10000x128_0_1
    (Host.divf (broadcastInDim S1x128 ![1] bcast_S128_S1x128_1 (rSum x))
      (broadcastInDim S1x128 ![] bcast_S_S1x128 (constant S_ .f32 0x461C4000#32))))

def rVar (x : T F S10000x128) : T F S128 :=
  select (broadcastInDim S128 ![] bcast_S_S128 (cmpf .ogt (rDof (F := F)) (constant S_ .f32 0x00000000#32)))
    (Host.divf (rSum (mulf (rDevV x) (rDevV x))) (broadcastInDim S128 ![] bcast_S_S128 (rDof (F := F))))
    (broadcastInDim S128 ![] bcast_S_S128 (id (constant S_ .f32 0x7FC00000#32)))

def rXh (x : T F S10000x128) (g b : T F S128) : T F S10000x128 :=
  addf (mulf (Host.divf (subf x (bcRows (rMean x)))
      (bcRows (Host.sqrt (addf (rVar x) (broadcastInDim S128 ![] bcast_S_S128 (constant S_ .f32 0x3727C5AC#32))))))
    (bcRows g)) (bcRows b)

def rY1 (xh : T F S10000x128) (w1 : T F S128x64) : T F S10000x64 :=
  Host.dotGeneral dot_S10000x128_S128x64_S10000x64_1_0_0_1_n_n none xh w1

def rH (adj : T F S10000x10000) (y1 : T F S10000x64) : T F S10000x64 :=
  maximumf (Host.dotGeneral dot_S10000x10000_S10000x64_S10000x64_1_0_0_1_n_n none adj y1)
    (broadcastInDim S10000x64 ![] bcast_S_S10000x64 (constant S_ .f32 0x00000000#32))

def rMU (adj : T F S10000x10000) (h : T F S10000x64) (w : T F S64x32) : T F S10000x32 :=
  Host.dotGeneral dot_S10000x10000_S10000x32_S10000x32_1_0_0_1_n_n none adj
    (Host.dotGeneral dot_S10000x64_S64x32_S10000x32_1_0_0_1_n_n none h w)

def rAP (mu : T F S10000x32) : T F S10000x10000 :=
  Host.dotGeneral dot_S10000x32_S32x10000_S10000x10000_1_0_0_1_n_n none mu
    (transpose S32x10000 [1, 0] mu transposes_S10000x32_S32x10000_1_0)

def rXPre (mu : T F S10000x32) (few : T F S32x128) : T F S10000x128 :=
  Host.dotGeneral dot_S10000x32_S32x128_S10000x128_1_0_0_1_n_n none mu few

def rXP (mu : T F S10000x32) (few : T F S32x128) : T F S10000x128 :=
  select (cmpf .oge (rXPre mu few) (broadcastInDim S10000x128 ![] bcast_S_S10000x128 (constant S_ .f32 0x00000000#32)))
    (rXPre mu few)
    (mulf (broadcastInDim S10000x128 ![] bcast_S_S10000x128 (id (constant S_ .f32 0x3C23D70A#32))) (rXPre mu few))

/-- The hidden layer from the arguments. -/
def rHid (x : T F S10000x128) (adj : T F S10000x10000) (w1 : T F S128x64) (g b : T F S128) : T F S10000x64 :=
  rH adj (rY1 (rXh x g b) w1)

/-- The latent mean (with `W2`) or log-variance (with `W3`) from the arguments. -/
def resMU (x : T F S10000x128) (adj : T F S10000x10000) (w1 : T F S128x64) (w : T F S64x32) (g b : T F S128) : T F S10000x32 :=
  rMU adj (rHid x adj w1 g b) w

end Cert.ReferenceIdeal.RefVal

end
-- ==== Proof.RefRun.lean ====
/-
  The reference program run: its entry function is a straight line of host operations once the
  routines it calls (the variance, the two selects, the rectifier, the leaky rectifier) are unfolded
  at their call sites, so every weakly fair execution ends, and each result buffer then holds the
  composition of those operations applied to the argument arrays.
-/
import proofs.«165724_g68255620268442_cont_9to1_m_670_4_alg».proof.Proof.RefDefs
import Idealize.ShloMosaic.Lib.StableHlo.Run

noncomputable section

namespace Cert.ReferenceIdeal.RefVal

open Cert.ReferenceIdeal Cert.ReferenceIdeal.Gen Idealize.ShloMosaic Idealize.ShloMosaic.TcCoe Idealize.SL.Sem Idealize.ShloMosaic.StableHlo

variable {F : FTy → Type} [FloatOps F]

/-- The entry function's sixty-four operations in order, each called routine's operations listed at
    its call site over that call's buffers: the variance routine (nineteen, then its select's
    three) after the column mean, the rectifier's three after the second matrix product, the leaky
    rectifier's six and its select after the decoder's product. -/
abbrev ops : List (HloOp τ sig (Elt F)) :=
  [ nullary main_cst (constant S_ .f32 0x00000000#32),
    binary main_arg0 main_cst main_v0 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    nullary main_cst_0 (constant S_ .f32 0x461C4000#32),
    unary main_cst_0 main_v1 (broadcastInDim S128 ![] bcast_S_S128 : (⟨S_, .f32⟩ : BufTy).Contents (Elt F) → (⟨S128, .f32⟩ : BufTy).Contents (Elt F)),
    binary main_v0 main_v1 main_v2 (Host.divf : (⟨S128, .f32⟩ : BufTy).Contents (Elt F) → (⟨S128, .f32⟩ : BufTy).Contents (Elt F) → (⟨S128, .f32⟩ : BufTy).Contents (Elt F)),
    nullary main_c (constantI S_ 32 0#32),
    TRef.nullary main_call0.cst (constant S_ .f32 0x00000000#32),
    TRef.binary (.of main_arg0 : TRef sig ⟨S10000x128, .f32⟩) main_call0.cst main_call0.v0 (fun x v => Host.reduceAdd x v reducesTo_S10000x128_S128_d0 h_S_),
    TRef.unary main_call0.v0 main_call0.v1 (broadcastInDim S1x128 ![1] bcast_S128_S1x128_1),
    TRef.nullary main_call0.cst_0 (constant S_ .f32 0x461C4000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S10000x128 ![0, 1] bcast_S1x128_S10000x128_0_1),
    TRef.binary (.of main_arg0 : TRef sig ⟨S10000x128, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x461C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S10000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v2 main_v4 (broadcastInDim S1x128 ![1] bcast_S128_S1x128_1 : (⟨S128, .f32⟩ : BufTy).Contents (Elt F) → (⟨S1x128, .f32⟩ : BufTy).Contents (Elt F)),
    unary main_v4 main_v5 (broadcastInDim S10000x128 ![0, 1] bcast_S1x128_S10000x128_0_1 : (⟨S1x128, .f32⟩ : BufTy).Contents (Elt F) → (⟨S10000x128, .f32⟩ : BufTy).Contents (Elt F)),
    binary main_arg0 main_v5 main_v6 (subf : (⟨S10000x128, .f32⟩ : BufTy).Contents (Elt F) → (⟨S10000x128, .f32⟩ : BufTy).Contents (Elt F) → (⟨S10000x128, .f32⟩ : BufTy).Contents (Elt F)),
    nullary main_cst_1 (constant S_ .f32 0x3727C5AC#32),
    unary main_cst_1 main_v7 (broadcastInDim S128 ![] bcast_S_S128 : (⟨S_, .f32⟩ : BufTy).Contents (Elt F) → (⟨S128, .f32⟩ : BufTy).Contents (Elt F)),
    binary main_v3 main_v7 main_v8 (addf : (⟨S128, .f32⟩ : BufTy).Contents (Elt F) → (⟨S128, .f32⟩ : BufTy).Contents (Elt F) → (⟨S128, .f32⟩ : BufTy).Contents (Elt F)),
    unary main_v8 main_v9 (Host.sqrt : (⟨S128, .f32⟩ : BufTy).Contents (Elt F) → (⟨S128, .f32⟩ : BufTy).Contents (Elt F)),
    unary main_v9 main_v10 (broadcastInDim S1x128 ![1] bcast_S128_S1x128_1 : (⟨S128, .f32⟩ : BufTy).Contents (Elt F) → (⟨S1x128, .f32⟩ : BufTy).Contents (Elt F)),
    unary main_v10 main_v11 (broadcastInDim S10000x128 ![0, 1] bcast_S1x128_S10000x128_0_1 : (⟨S1x128, .f32⟩ : BufTy).Contents (Elt F) → (⟨S10000x128, .f32⟩ : BufTy).Contents (Elt F)),
    binary main_v6 main_v11 main_v12 (Host.divf : (⟨S10000x128, .f32⟩ : BufTy).Contents (Elt F) → (⟨S10000x128, .f32⟩ : BufTy).Contents (Elt F) → (⟨S10000x128, .f32⟩ : BufTy).Contents (Elt F)),
    unary main_arg6 main_v13 (broadcastInDim S1x128 ![1] bcast_S128_S1x128_1 : (⟨S128, .f32⟩ : BufTy).Contents (Elt F) → (⟨S1x128, .f32⟩ : BufTy).Contents (Elt F)),
    unary main_v13 main_v14 (broadcastInDim S10000x128 ![0, 1] bcast_S1x128_S10000x128_0_1 : (⟨S1x128, .f32⟩ : BufTy).Contents (Elt F) → (⟨S10000x128, .f32⟩ : BufTy).Contents (Elt F)),
    binary main_v12 main_v14 main_v15 (mulf : (⟨S10000x128, .f32⟩ : BufTy).Contents (Elt F) → (⟨S10000x128, .f32⟩ : BufTy).Contents (Elt F) → (⟨S10000x128, .f32⟩ : BufTy).Contents (Elt F)),
    unary main_arg7 main_v16 (broadcastInDim S1x128 ![1] bcast_S128_S1x128_1 : (⟨S128, .f32⟩ : BufTy).Contents (Elt F) → (⟨S1x128, .f32⟩ : BufTy).Contents (Elt F)),
    unary main_v16 main_v17 (broadcastInDim S10000x128 ![0, 1] bcast_S1x128_S10000x128_0_1 : (⟨S1x128, .f32⟩ : BufTy).Contents (Elt F) → (⟨S10000x128, .f32⟩ : BufTy).Contents (Elt F)),
    binary main_v15 main_v17 main_v18 (addf : (⟨S10000x128, .f32⟩ : BufTy).Contents (Elt F) → (⟨S10000x128, .f32⟩ : BufTy).Contents (Elt F) → (⟨S10000x128, .f32⟩ : BufTy).Contents (Elt F)),
    binary main_v18 main_arg2 main_v19 ((fun l r => Host.dotGeneral dot_S10000x128_S128x64_S10000x64_1_0_0_1_n_n none l r) : (⟨S10000x128, .f32⟩ : BufTy).Contents (Elt F) → (⟨S128x64, .f32⟩ : BufTy).Contents (Elt F) → (⟨S10000x64, .f32⟩ : BufTy).Contents (Elt F)),
    binary main_arg1 main_v19 main_v20 ((fun l r => Host.dotGeneral dot_S10000x10000_S10000x64_S10000x64_1_0_0_1_n_n none l r) : (⟨S10000x10000, .f32⟩ : BufTy).Contents (Elt F) → (⟨S10000x64, .f32⟩ : BufTy).Contents (Elt F) → (⟨S10000x64, .f32⟩ : BufTy).Contents (Elt F)),
    TRef.nullary main_call1.cst (constant S_ .f32 0x00000000#32),
    TRef.unary main_call1.cst main_call1.v0 (broadcastInDim S10000x64 ![] bcast_S_S10000x64),
    TRef.binary (.of main_v20 : TRef sig ⟨S10000x64, .f32⟩) main_call1.v0 main_call1.v1 maximumf,
    binary main_v21 main_arg3 main_v22 ((fun l r => Host.dotGeneral dot_S10000x64_S64x32_S10000x32_1_0_0_1_n_n none l r) : (⟨S10000x64, .f32⟩ : BufTy).Contents (Elt F) → (⟨S64x32, .f32⟩ : BufTy).Contents (Elt F) → (⟨S10000x32, .f32⟩ : BufTy).Contents (Elt F)),
    binary main_arg1 main_v22 main_v23 ((fun l r => Host.dotGeneral dot_S10000x10000_S10000x32_S10000x32_1_0_0_1_n_n none l r) : (⟨S10000x10000, .f32⟩ : BufTy).Contents (Elt F) → (⟨S10000x32, .f32⟩ : BufTy).Contents (Elt F) → (⟨S10000x32, .f32⟩ : BufTy).Contents (Elt F)),
    binary main_v21 main_arg4 main_v24 ((fun l r => Host.dotGeneral dot_S10000x64_S64x32_S10000x32_1_0_0_1_n_n none l r) : (⟨S10000x64, .f32⟩ : BufTy).Contents (Elt F) → (⟨S64x32, .f32⟩ : BufTy).Contents (Elt F) → (⟨S10000x32, .f32⟩ : BufTy).Contents (Elt F)),
    binary main_arg1 main_v24 main_v25 ((fun l r => Host.dotGeneral dot_S10000x10000_S10000x32_S10000x32_1_0_0_1_n_n none l r) : (⟨S10000x10000, .f32⟩ : BufTy).Contents (Elt F) → (⟨S10000x32, .f32⟩ : BufTy).Contents (Elt F) → (⟨S10000x32, .f32⟩ : BufTy).Contents (Elt F)),
    unary main_v23 main_v26 ((transpose S32x10000 [1, 0] · transposes_S10000x32_S32x10000_1_0) : (⟨S10000x32, .f32⟩ : BufTy).Contents (Elt F) → (⟨S32x10000, .f32⟩ : BufTy).Contents (Elt F)),
    binary main_v23 main_v26 main_v27 ((fun l r => Host.dotGeneral dot_S10000x32_S32x10000_S10000x10000_1_0_0_1_n_n none l r) : (⟨S10000x32, .f32⟩ : BufTy).Contents (Elt F) → (⟨S32x10000, .f32⟩ : BufTy).Contents (Elt F) → (⟨S10000x10000, .f32⟩ : BufTy).Contents (Elt F)),
    binary main_v23 main_arg5 main_v28 ((fun l r => Host.dotGeneral dot_S10000x32_S32x128_S10000x128_1_0_0_1_n_n none l r) : (⟨S10000x32, .f32⟩ : BufTy).Contents (Elt F) → (⟨S32x128, .f32⟩ : BufTy).Contents (Elt F) → (⟨S10000x128, .f32⟩ : BufTy).Contents (Elt F)),
    nullary main_cst_2 (constant S_ .f32 0x3C23D70A#32),
    TRef.nullary main_call2.cst (constant S_ .f32 0x00000000#32),
    TRef.unary main_call2.cst main_call2.v0 (broadcastInDim S10000x128 ![] bcast_S_S10000x128),
    TRef.binary (.of main_v28 : TRef sig ⟨S10000x128, .f32⟩) main_call2.v0 main_call2.v1 (cmpf .oge),
    TRef.unary (.of main_cst_2 : TRef sig ⟨S_, .f32⟩) main_call2.v2 id,
    TRef.unary main_call2.v2 main_call2.v3 (broadcastInDim S10000x128 ![] bcast_S_S10000x128),
    TRef.binary main_call2.v3 (.of main_v28 : TRef sig ⟨S10000x128, .f32⟩) main_call2.v4 mulf,
    TRef.ternary main_call2.v1 (.of main_v28 : TRef sig ⟨S10000x128, .f32⟩) main_call2.v4 main_call2.call0.v0 select ]

set_option maxRecDepth 4096 in
/-- The entry function is that straight line: the routines unfolded at their calls, the
    sequencing reassociated. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., binary_bufs_sub .., nullary_bufs_sub .., unary_bufs_sub .., binary_bufs_sub .., binary_bufs_sub .., binary_bufs_sub .., binary_bufs_sub .., binary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub ..⟩

/-- Every weakly fair execution of the entry function terminates, and every final state has each
    buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! The fold read at each result and each argument: the operations' results composed are the stage
    terms by computation, the element-wise and reduction operations kept folded meanwhile. -/

attribute [local irreducible] Host.reduceAdd Host.divf Host.sqrt transpose broadcastInDim select mulf addf subf maximumf cmpf constant constantI sitofp in
set_option maxRecDepth 8192 in
theorem v23_eq (V : Valuation τ sig (Elt F)) :
    after ops V (main_v23 : DevRef τ sig) = resMU (V (main_arg0 : DevRef τ sig)) (V (main_arg1 : DevRef τ sig)) (V (main_arg2 : DevRef τ sig)) (V (main_arg3 : DevRef τ sig)) (V (main_arg6 : DevRef τ sig)) (V (main_arg7 : DevRef τ sig)) := by
  simp only [after_cons, after_nil]
  rfl

attribute [local irreducible] Host.reduceAdd Host.divf Host.sqrt transpose broadcastInDim select mulf addf subf maximumf cmpf constant constantI sitofp in
set_option maxRecDepth 8192 in
theorem v25_eq (V : Valuation τ sig (Elt F)) :
    after ops V (main_v25 : DevRef τ sig) = resMU (V (main_arg0 : DevRef τ sig)) (V (main_arg1 : DevRef τ sig)) (V (main_arg2 : DevRef τ sig)) (V (main_arg4 : DevRef τ sig)) (V (main_arg6 : DevRef τ sig)) (V (main_arg7 : DevRef τ sig)) := by
  simp only [after_cons, after_nil]
  rfl

attribute [local irreducible] Host.reduceAdd Host.divf Host.sqrt transpose broadcastInDim select mulf addf subf maximumf cmpf constant constantI sitofp in
set_option maxRecDepth 8192 in
theorem v27_eq (V : Valuation τ sig (Elt F)) :
    after ops V (main_v27 : DevRef τ sig) = rAP (resMU (V (main_arg0 : DevRef τ sig)) (V (main_arg1 : DevRef τ sig)) (V (main_arg2 : DevRef τ sig)) (V (main_arg3 : DevRef τ sig)) (V (main_arg6 : DevRef τ sig)) (V (main_arg7 : DevRef τ sig))) := by
  simp only [after_cons, after_nil]
  rfl

attribute [local irreducible] Host.reduceAdd Host.divf Host.sqrt transpose broadcastInDim select mulf addf subf maximumf cmpf constant constantI sitofp in
set_option maxRecDepth 8192 in
theorem v29_eq (V : Valuation τ sig (Elt F)) :
    after ops V (main_v29 : DevRef τ sig) = rXP (resMU (V (main_arg0 : DevRef τ sig)) (V (main_arg1 : DevRef τ sig)) (V (main_arg2 : DevRef τ sig)) (V (main_arg3 : DevRef τ sig)) (V (main_arg6 : DevRef τ sig)) (V (main_arg7 : DevRef τ sig))) (V (main_arg5 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

theorem arg7_eq (V : Valuation τ sig (Elt F)) :
    after ops V (main_arg7 : DevRef τ sig) = V (main_arg7 : DevRef τ sig) := by
  simp only [after_cons, after_nil]
  rfl

/-- Every weakly fair execution of the reference terminates; the five results hold the stages'
    composition of the arguments, and the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27) = rAP (resMU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)))
      ∧ r.2.mem ((c.tc : Thread nD τ).loc main_v29) = rXP (resMU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))) (m ((c.tc : Thread nD τ).loc main_arg5))
      ∧ r.2.mem ((c.tc : Thread nD τ).loc main_v23) = resMU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))
      ∧ r.2.mem ((c.tc : Thread nD τ).loc main_v25) = resMU (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono
    (fun _ h c => ⟨(h c main_v27).trans (v27_eq _), (h c main_v29).trans (v29_eq _), (h c main_v23).trans (v23_eq _),
      (h c main_v25).trans (v25_eq _), (h c main_arg0).trans (arg0_eq _), (h c main_arg1).trans (arg1_eq _),
      (h c main_arg2).trans (arg2_eq _), (h c main_arg3).trans (arg3_eq _), (h c main_arg4).trans (arg4_eq _),
      (h c main_arg5).trans (arg5_eq _), (h c main_arg6).trans (arg6_eq _), (h c main_arg7).trans (arg7_eq _)⟩)
    (run_main m ρ)

end Cert.ReferenceIdeal.RefVal

end
-- ==== Proof.RefRead.lean ====
/-
  The reference's stages read at an index. Each host operation is read entry by entry: a broadcast
  repeats its operand, an elementwise operation acts entry by entry, a sum over the rows is a finite
  sum, a general dot product is the sum over the contracted index of the products. The variance
  routine divides by (row count minus zero), which is the row count, and its guard "that divisor is
  positive" holds, so it is the plain variance.
-/
import proofs.«165724_g68255620268442_cont_9to1_m_670_4_alg».proof.Proof.RefDefs
import proofs.«165724_g68255620268442_cont_9to1_m_670_4_alg».proof.Proof.Spec
import proofs.«165724_g68255620268442_cont_9to1_m_670_4_alg».proof.Proof.LibDot2
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefVal

open Cert.ReferenceIdeal Cert.ReferenceIdeal.Gen Cert.Spec Idealize.ShloMosaic Idealize.ShloMosaic.ValueIdx

/-! ## Broadcasts -/

/-- A scalar broadcast to any shape repeats its one entry. -/
theorem bcScalar_apply {α : Type} {t : Shape} (h : S_.BroadcastsInDim t (![] : Fin 0 → Fin t.rank))
    (c : S_.Idx → α) (o : t.Idx) : broadcastInDim t ![] h c o = c ix0 :=
  broadcastInDim_apply _ h c o ix0 (fun a => a.elim0)

/-- A length-128 vector, as a single row, repeated along the 10000 rows: entry `(i, j)` is entry `j`. -/
theorem rowBc_apply (v : T Ideal S1x128) (i : Fin 10000) (j : Fin 128) :
    broadcastInDim S10000x128 ![0, 1] bcast_S1x128_S10000x128_0_1 v (ix2 i j) = v (ix2 (0 : Fin 1) j) :=
  broadcastInDim_apply ![0, 1] bcast_S1x128_S10000x128_0_1 v (ix2 i j) (ix2 (0 : Fin 1) j)
    (fun a => match a with | ⟨0, _⟩ => rfl | ⟨1, _⟩ => rfl)

/-- A length-128 vector given a unit leading axis: entry `(0, j)` is entry `j`. -/
theorem unitBc_apply (v : T Ideal S128) (j : Fin 128) :
    broadcastInDim S1x128 ![1] bcast_S128_S1x128_1 v (ix2 (0 : Fin 1) j) = v (ix1 j) :=
  broadcastInDim_apply ![1] bcast_S128_S1x128_1 v (ix2 (0 : Fin 1) j) (ix1 j)
    (fun a => match a with | ⟨0, _⟩ => rfl)

theorem bcRows_apply (v : T Ideal S128) (i : Fin 10000) (j : Fin 128) : bcRows v (ix2 i j) = v (ix1 j) := by
  unfold bcRows
  rw [rowBc_apply, unitBc_apply]

/-! ## The column sums, the mean and the variance -/

/-- The index of the 10000 x 128 array that reduces to column `j` with row `k` inserted is `(k, j)`. -/
theorem lift_rows (h : Shape.Reduces S10000x128 [0] S128) (j : Fin 128) (k : Fin 10000) :
    h.lift (ix1 j) k = ix2 k j := by
  funext a; apply Fin.ext
  match a with
  | ⟨0, _⟩ => rfl
  | ⟨1, _⟩ => rfl

/-- The sum over the rows from zero: a finite sum over the row index. -/
theorem rSum_apply (x : T Ideal S10000x128) (j : Fin 128) : rSum x (ix1 j) = ∑ i : Fin 10000, x (ix2 i j) := by
  unfold rSum Host.reduceAdd
  show Ideal.hostReduceAdd reducesTo_S10000x128_S128_d0 x (Ideal.ofBits .f32 0x00000000#32) (ix1 j) = _
  rw [Ideal.hostReduceAdd_single reducesTo_S10000x128_S128_d0 (by decide : Shape.Reduces S10000x128 [0] S128),
    Ideal.ofBits_zero_f32, zero_add]
  exact Finset.sum_congr rfl fun k _ => congrArg x (lift_rows _ j k)

theorem rMean_apply (x : T Ideal S10000x128) (j : Fin 128) : rMean x (ix1 j) = mean x j := by
  unfold rMean mean
  show Ideal.div (rSum x (ix1 j))
    (broadcastInDim S128 ![] bcast_S_S128 (constant (F := Ideal) S_ .f32 0x461C4000#32) (ix1 j)) = _
  rw [rSum_apply, bcScalar_apply]
  rfl

/-- The divisor: the row count minus zero is the row count. -/
theorem rDof_apply (o : S_.Idx) : rDof (F := Ideal) o = c1e4 := by
  unfold rDof
  rw [subf_apply, constant_apply, sitofp_apply]
  show Ideal.ofBits .f32 0x461C4000#32 - (((0#32 : BitVec 32).toInt : ℝ) : EReal) = c1e4
  rw [BitVec.toInt_zero, Int.cast_zero, EReal.coe_zero, sub_zero]
  rfl

/-- The guard "the divisor is positive" holds. -/
theorem rGuard_apply (o : S_.Idx) :
    cmpf .ogt (rDof (F := Ideal)) (constant (F := Ideal) S_ .f32 0x00000000#32) o = 1#1 := by
  rw [cmpf_apply, rDof_apply, constant_apply, Ideal.cmpf_def, Ideal.ofBits_zero_f32, c1e4_eq]
  have h : (0 : EReal) < ((10000 : ℝ) : EReal) := by exact_mod_cast (by norm_num : (0 : ℝ) < 10000)
  show BitVec.ofBool (decide ((0 : EReal) < ((10000 : ℝ) : EReal))) = 1#1
  rw [decide_eq_true h]
  rfl

theorem rDevV_apply (x : T Ideal S10000x128) (i : Fin 10000) (j : Fin 128) : rDevV x (ix2 i j) = dev x i j := by
  unfold rDevV dev mean
  rw [subf_apply, rowBc_apply]
  show x (ix2 i j) - Ideal.div (broadcastInDim S1x128 ![1] bcast_S128_S1x128_1 (rSum x) (ix2 (0 : Fin 1) j))
    (broadcastInDim S1x128 ![] bcast_S_S1x128 (constant (F := Ideal) S_ .f32 0x461C4000#32) (ix2 (0 : Fin 1) j)) = _
  rw [unitBc_apply, bcScalar_apply, rSum_apply]
  rfl

theorem rVar_apply (x : T Ideal S10000x128) (j : Fin 128) : rVar x (ix1 j) = var x j := by
  unfold rVar var
  rw [select_apply, bcScalar_apply, rGuard_apply, select_one]
  show Ideal.div (rSum (mulf (rDevV x) (rDevV x)) (ix1 j))
    (broadcastInDim S128 ![] bcast_S_S128 (rDof (F := Ideal)) (ix1 j)) = _
  rw [rSum_apply, bcScalar_apply, rDof_apply]
  congr 1
  exact Finset.sum_congr rfl fun i _ => by rw [mulf_apply, rDevV_apply]

/-- The normalised features, divided by the deviation first and scaled after. -/
theorem rXh_apply (x : T Ideal S10000x128) (g b : T Ideal S128) (i : Fin 10000) (j : Fin 128) :
    rXh x g b (ix2 i j) = xhR x (fun j => g (ix1 j)) (fun j => b (ix1 j)) i j := by
  unfold rXh xhR sd dev
  rw [addf_apply, mulf_apply, bcRows_apply, bcRows_apply]
  show Ideal.div (subf x (bcRows (rMean x)) (ix2 i j))
    (bcRows (Host.sqrt (addf (rVar x)
      (broadcastInDim S128 ![] bcast_S_S128 (constant (F := Ideal) S_ .f32 0x3727C5AC#32)))) (ix2 i j))
      * g (ix1 j) + b (ix1 j) = _
  rw [subf_apply, bcRows_apply, bcRows_apply, rMean_apply]
  show Ideal.div (x (ix2 i j) - mean x j)
    (Ideal.sqrt (addf (rVar x)
      (broadcastInDim S128 ![] bcast_S_S128 (constant (F := Ideal) S_ .f32 0x3727C5AC#32)) (ix1 j)))
      * g (ix1 j) + b (ix1 j) = _
  rw [addf_apply, rVar_apply, bcScalar_apply]
  rfl

/-! ## The products -/

theorem rY1_apply (xh : T Ideal S10000x128) (w1 : T Ideal S128x64) (i : Fin 10000) (q : Fin 64) :
    rY1 xh w1 (ix2 i q) = ∑ k : Fin 128, xh (ix2 i k) * w1 (ix2 k q) := by
  unfold rY1
  exact Dot2.host_dotGeneral_mm_apply dot_S10000x128_S128x64_S10000x64_1_0_0_1_n_n_wf none xh w1 i q

/-- The rectified product: the larger of the entry of `adj y1` and zero. -/
theorem rH_apply (adj : T Ideal S10000x10000) (y1 : T Ideal S10000x64) (i : Fin 10000) (q : Fin 64) :
    rH adj y1 (ix2 i q) = max (∑ k : Fin 10000, adj (ix2 i k) * y1 (ix2 k q)) zero := by
  unfold rH
  rw [maximumf_apply, bcScalar_apply, constant_apply]
  exact congrArg (fun v => max v zero)
    (Dot2.host_dotGeneral_mm_apply dot_S10000x10000_S10000x64_S10000x64_1_0_0_1_n_n_wf none adj y1 i q)

theorem rMU_apply (adj : T Ideal S10000x10000) (h : T Ideal S10000x64) (w : T Ideal S64x32) (i : Fin 10000)
    (q : Fin 32) :
    rMU adj h w (ix2 i q) = ∑ t : Fin 10000, adj (ix2 i t) * ∑ l : Fin 64, h (ix2 t l) * w (ix2 l q) := by
  unfold rMU
  refine (Dot2.host_dotGeneral_mm_apply dot_S10000x10000_S10000x32_S10000x32_1_0_0_1_n_n_wf none adj _ i q).trans ?_
  refine Finset.sum_congr rfl fun t _ => ?_
  exact congrArg (fun v => adj (ix2 i t) * v)
    (Dot2.host_dotGeneral_mm_apply dot_S10000x64_S64x32_S10000x32_1_0_0_1_n_n_wf none h w t q)

theorem rXPre_apply (mu : T Ideal S10000x32) (few : T Ideal S32x128) (i : Fin 10000) (j : Fin 128) :
    rXPre mu few (ix2 i j) = ∑ t : Fin 32, mu (ix2 i t) * few (ix2 t j) := by
  unfold rXPre
  exact Dot2.host_dotGeneral_mm_apply dot_S10000x32_S32x128_S10000x128_1_0_0_1_n_n_wf none mu few i j

/-- The transposed latent array: entry `(t, j)` is entry `(j, t)`. -/
theorem muT_apply (mu : T Ideal S10000x32) (t : Fin 32) (j : Fin 10000) :
    transpose S32x10000 [1, 0] mu transposes_S10000x32_S32x10000_1_0 (ix2 t j) = mu (ix2 j t) :=
  transpose_apply [1, 0] mu transposes_S10000x32_S32x10000_1_0 (ix2 t j) (ix2 j t)
    (fun b => match b with | ⟨0, _⟩ => rfl | ⟨1, _⟩ => rfl)

/-- The latent mean (or log-variance) at row `i`, column `q`. -/
theorem resMU_apply (x : T Ideal S10000x128) (adj : T Ideal S10000x10000) (w1 : T Ideal S128x64) (w : T Ideal S64x32)
    (g b : T Ideal S128) (i : Fin 10000) (q : Fin 32) :
    resMU x adj w1 w g b (ix2 i q)
      = MU adj (H adj (Y1 (xhR x (fun j => g (ix1 j)) (fun j => b (ix1 j))) w1)) w i q := by
  unfold resMU rHid
  rw [rMU_apply]
  unfold MU H Y1 relu mm cur
  refine Finset.sum_congr rfl fun t _ => ?_
  refine congrArg (fun v => adj (ix2 i t) * v) ?_
  refine Finset.sum_congr rfl fun l _ => ?_
  refine congrArg (fun v => v * w (ix2 l q)) ?_
  rw [rH_apply]
  refine congrArg (fun v => max v zero) ?_
  refine Finset.sum_congr rfl fun k _ => ?_
  refine congrArg (fun v => adj (ix2 t k) * v) ?_
  rw [rY1_apply]
  refine Finset.sum_congr rfl fun m _ => ?_
  rw [rXh_apply]

/-- The reconstruction of the adjacency at `(i, j)`: the inner product of rows `i` and `j`. -/
theorem rAP_apply (mu : T Ideal S10000x32) (i j : Fin 10000) : rAP mu (ix2 i j) = AP (cur mu) i j := by
  unfold rAP AP cur
  refine (Dot2.host_dotGeneral_mm_apply dot_S10000x32_S32x10000_S10000x10000_1_0_0_1_n_n_wf none mu _ i j).trans ?_
  refine Finset.sum_congr rfl fun t _ => ?_
  rw [muT_apply]

/-- The reconstruction of the features at `(i, j)`. -/
theorem rXP_apply (mu : T Ideal S10000x32) (few : T Ideal S32x128) (i : Fin 10000) (j : Fin 128) :
    rXP mu few (ix2 i j) = XP (cur mu) few i j := by
  unfold rXP XP leaky mm cur
  rw [select_apply, cmpf_apply, mulf_apply, bcScalar_apply, bcScalar_apply, rXPre_apply]
  rfl

end Cert.ReferenceIdeal.RefVal

end
-- ==== Proof.Bridge.lean ====
/-
  The reference's five results in the vocabulary of the kernel's: the reference scales after it
  divides, the kernel folds the scale into the divisor; the two normalisations are one function
  (the deviation is never zero), and everything after it is the same composition of products.
-/
import proofs.«165724_g68255620268442_cont_9to1_m_670_4_alg».proof.Proof.RefRead

noncomputable section

namespace Cert.ReferenceIdeal.RefVal

open Cert.ReferenceIdeal Cert.ReferenceIdeal.Gen Cert.Spec Idealize.ShloMosaic Idealize.ShloMosaic.ValueIdx

/-- The latent array from the arguments, with the kernel's order of scaling. -/
theorem resMU_eq (x : T Ideal S10000x128) (adj : T Ideal S10000x10000) (w1 : T Ideal S128x64) (w : T Ideal S64x32)
    (g b : T Ideal S128) :
    resMU x adj w1 w g b
      = arr2 (MU adj (H adj (Y1 (xhK x (fun j => g (ix1 j)) (fun j => b (ix1 j))) w1)) w) := by
  funext o
  obtain ⟨p, q, rfl⟩ : ∃ (p : Fin 10000) (q : Fin 32), o = ix2 p q := ⟨o 0, o 1, eq_ix2 o⟩
  rw [resMU_apply, xhK_eq_xhR]
  rfl

theorem rAP_eq (mu : Fin 10000 → Fin 32 → EReal) : rAP (F := Ideal) (arr2 mu) = arr2 (AP mu) := by
  funext o
  obtain ⟨p, q, rfl⟩ : ∃ (p : Fin 10000) (q : Fin 10000), o = ix2 p q := ⟨o 0, o 1, eq_ix2 o⟩
  rw [rAP_apply]
  rfl

theorem rXP_eq (mu : Fin 10000 → Fin 32 → EReal) (few : T Ideal S32x128) :
    rXP (F := Ideal) (arr2 mu) few = arr2 (XP mu few) := by
  funext o
  obtain ⟨p, q, rfl⟩ : ∃ (p : Fin 10000) (q : Fin 128), o = ix2 p q := ⟨o 0, o 1, eq_ix2 o⟩
  rw [rXP_apply]
  rfl

end Cert.ReferenceIdeal.RefVal

end
-- ==== Proof.lean ====
/-
  The certificate: the kernel program and its idealization each run to the end with their
  arguments unchanged (their five regions' frames), the reference runs (a straight line of host
  operations), the idealization is the kernel's own text read over the extended reals, and the
  idealized kernel and the idealized reference end with equal results:
    the reconstruction MU MUᵀ, the features leaky (MU few), and MU, LV, MU themselves, where
    MU = adj (H W2), LV = adj (H W3), H = max (adj (xh W1)) 0 and xh is the column-normalised
    input. The kernel folds the scale into the divisor and multiplies by [W2|W3] in one product;
    over the extended reals both are the same functions of the arguments.
-/
import proofs.«165724_g68255620268442_cont_9to1_m_670_4_alg».proof.Defs
import proofs.«165724_g68255620268442_cont_9to1_m_670_4_alg».proof.Proof.Gen.Kernel
import proofs.«165724_g68255620268442_cont_9to1_m_670_4_alg».proof.Proof.Gen.Kernel.Skeleton
import proofs.«165724_g68255620268442_cont_9to1_m_670_4_alg».proof.Proof.Gen.Kernel.Launch
import proofs.«165724_g68255620268442_cont_9to1_m_670_4_alg».proof.Proof.Gen.Kernel.Points
import proofs.«165724_g68255620268442_cont_9to1_m_670_4_alg».proof.Proof.Gen.Kernel.Frame
import proofs.«165724_g68255620268442_cont_9to1_m_670_4_alg».proof.Proof.Gen.KernelIdeal
import proofs.«165724_g68255620268442_cont_9to1_m_670_4_alg».proof.Proof.Gen.KernelIdeal.Skeleton
import proofs.«165724_g68255620268442_cont_9to1_m_670_4_alg».proof.Proof.Gen.KernelIdeal.Launch
import proofs.«165724_g68255620268442_cont_9to1_m_670_4_alg».proof.Proof.Gen.KernelIdeal.Points
import proofs.«165724_g68255620268442_cont_9to1_m_670_4_alg».proof.Proof.Gen.KernelIdeal.Frame
import proofs.«165724_g68255620268442_cont_9to1_m_670_4_alg».proof.Proof.Gen.ReferenceIdeal
import proofs.«165724_g68255620268442_cont_9to1_m_670_4_alg».proof.Proof.Gen.Pre_finite_inputs
import proofs.«165724_g68255620268442_cont_9to1_m_670_4_alg».proof.Proof.KChain
import proofs.«165724_g68255620268442_cont_9to1_m_670_4_alg».proof.Proof.RefRun
import proofs.«165724_g68255620268442_cont_9to1_m_670_4_alg».proof.Proof.Bridge
import Idealize.ShloMosaic.Adequacy
import Idealize.ShloMosaic.Init

set_option maxRecDepth 16384

noncomputable section

namespace Cert.Proof

open Idealize.ShloMosaic Idealize.SL.Sem Idealize.ShloMosaic.ValueIdx
open Cert.Spec Cert.KernelIdeal.Val Cert.ReferenceIdeal.RefVal

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2.2.2)
    (Cert.ReferenceIdeal.RefVal.run (F := Ideal) m ρ),
  trivial,
  fun m ρ m' ρ' _ hagree =>
    ⟨fun c => arr2 (AP (kMU m c)), fun c => arr2 (XP (kMU m c) (aFew m c)), fun c => arr2 (kMU m c),
      fun c => arr2 (kLV m c), fun c => arr2 (kMU m c),
      (θ_run Cert.KernelIdeal.defs _ _).mono (fun r h c =>
        ⟨(h c Cert.KernelIdeal.main_v7 (by decide)).trans (W6_v7 m ρ c),
         (h c Cert.KernelIdeal.main_v5_2 (by decide)).trans (W6_v5_2 m ρ c),
         (h c Cert.KernelIdeal.main_v5_0 (by decide)).trans (W6_v5_0 m ρ c),
         (h c Cert.KernelIdeal.main_v5_1 (by decide)).trans (W6_v5_1 m ρ c),
         (h c Cert.KernelIdeal.main_v5_0 (by decide)).trans (W6_v5_0 m ρ c),
         (h c Cert.KernelIdeal.main_arg0 (by decide)).trans (Cert.KernelIdeal.Gen.W6_main_arg0 m ρ c),
         (h c Cert.KernelIdeal.main_arg1 (by decide)).trans (Cert.KernelIdeal.Gen.W6_main_arg1 m ρ c),
         (h c Cert.KernelIdeal.main_arg2 (by decide)).trans (Cert.KernelIdeal.Gen.W6_main_arg2 m ρ c),
         (h c Cert.KernelIdeal.main_arg3 (by decide)).trans (Cert.KernelIdeal.Gen.W6_main_arg3 m ρ c),
         (h c Cert.KernelIdeal.main_arg4 (by decide)).trans (Cert.KernelIdeal.Gen.W6_main_arg4 m ρ c),
         (h c Cert.KernelIdeal.main_arg5 (by decide)).trans (Cert.KernelIdeal.Gen.W6_main_arg5 m ρ c),
         (h c Cert.KernelIdeal.main_arg6 (by decide)).trans (Cert.KernelIdeal.Gen.W6_main_arg6 m ρ c),
         (h c Cert.KernelIdeal.main_arg7 (by decide)).trans (Cert.KernelIdeal.Gen.W6_main_arg7 m ρ c)⟩)
        (Cert.KernelIdeal.Val.run_all m ρ),
      (θ_run Cert.ReferenceIdeal.defs _ _).mono (fun r h c => by
        obtain ⟨e0, e1, e2, e3, e4, e5, e6, e7⟩ := hagree c
        obtain ⟨r0, r1, r2, r3, a0, a1, a2, a3, a4, a5, a6, a7⟩ := h c
        have hmu : resMU (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg6))
            (m' ((c.tc : Thread Cert.ReferenceIdeal.nD Cert.ReferenceIdeal.τ).loc Cert.ReferenceIdeal.main_arg7))
            = arr2 (kMU m c) := by
          rw [e0, e1, e2, e3, e6, e7]; exact resMU_eq _ _ _ _ _ _
        have hlv : resMU (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg6))
            (m' ((c.tc : Thread Cert.ReferenceIdeal.nD Cert.ReferenceIdeal.τ).loc Cert.ReferenceIdeal.main_arg7))
            = arr2 (kLV m c) := by
          rw [e0, e1, e2, e4, e6, e7]; exact resMU_eq _ _ _ _ _ _
        refine ⟨r0.trans ?_, r1.trans ?_, r2.trans hmu, r3.trans hlv, r2.trans hmu, a0, a1, a2, a3, a4, a5, a6, a7⟩
        · rw [hmu]; exact rAP_eq _
        · rw [hmu, e5]; exact rXP_eq _ _)
        (Cert.ReferenceIdeal.RefVal.run (F := Ideal) m' ρ')⟩⟩

end Cert.Proof

end
